-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x4096 : Shape := ⟨2, ![2048, 4096]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x2048 .f32) (main_arg1 : FVec F S1024x2048 .f32) (main_arg2 : FVec F S1024x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048 .f32) (main_arg10 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S1024x2048 : Shape := ⟨2, ![1024, 2048]⟩
abbrev S2048x4096 : Shape := ⟨2, ![2048, 4096]⟩
abbrev S2048 : Shape := ⟨1, ![2048]⟩
abbrev S1x2048 : Shape := ⟨2, ![1, 2048]⟩
abbrev S256x2048 : Shape := ⟨2, ![256, 2048]⟩
abbrev S512x4096 : Shape := ⟨2, ![512, 4096]⟩
abbrev S1x512 : Shape := ⟨2, ![1, 512]⟩
abbrev S256x512 : Shape := ⟨2, ![256, 512]⟩
abbrev S512x2048 : Shape := ⟨2, ![512, 2048]⟩

abbrev nBuf : Space → Nat
  | .hbm => 23
  | .vmem => 40
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x4096, .bf16⟩
  | .hbm, ⟨12, _⟩ => ⟨S2048x4096, .bf16⟩
  | .hbm, ⟨13, _⟩ => ⟨S2048x4096, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S512x4096, .bf16⟩
  | .local _ .vmem, ⟨29, _⟩ => ⟨S512x4096, .bf16⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S512x4096_S512x2048_0_0 : ∀ a, (![0, 0] : Fin 2 → Nat) a + S512x2048.size a ≤ S512x4096.size a
  h_S512x2048 : 0 < S512x2048.numel
  shapeCasts_S512x2048_S512x2048 : S512x2048.ShapeCasts S512x2048
  inb_S512x4096_S512x2048_0_2048 : ∀ a, (![0, 2048] : Fin 2 → Nat) a + S512x2048.size a ≤ S512x4096.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S256x2048_S256x2048 : S256x2048.ShapeCasts S256x2048
  shapeCasts_S256x512_S256x512 : S256x512.ShapeCasts S256x512
  natLt_1_32 : 1 < 32
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x2048.size a
  hwx0_0 : ∀ i : grid0.Coords, EltTy.bits .f32 = 32 ∨ (Rect.block (s := S1024x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x4096.size a
  hwx0_2 : ∀ i : grid0.Coords, EltTy.bits .bf16 = 32 ∨ (Rect.block (s := S2048x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S2048x4096.size a
  hwx0_3 : ∀ i : grid0.Coords, EltTy.bits .bf16 = 32 ∨ (Rect.block (s := S2048x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S1024x2048.size a
  hwx0_6 : ∀ i : grid0.Coords, EltTy.bits .f32 = 32 ∨ (Rect.block (s := S1024x2048) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S1024x2048.size a
  hwx0_7 : ∀ i : grid0.Coords, EltTy.bits .f32 = 32 ∨ (Rect.block (s := S1024x2048) S256x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x2048.size a
  hwx1_0 : ∀ i : grid1.Coords, EltTy.bits .f32 = 32 ∨ (Rect.block (s := S1024x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S1024x2048.size a
  hwx1_1 : ∀ i : grid1.Coords, EltTy.bits .f32 = 32 ∨ (Rect.block (s := S1024x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S1024x2048.size a
  hwx1_2 : ∀ i : grid1.Coords, EltTy.bits .f32 = 32 ∨ (Rect.block (s := S1024x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S1024x2048.size a
  hwx1_3 : ∀ i : grid1.Coords, EltTy.bits .f32 = 32 ∨ (Rect.block (s := S1024x2048) S256x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S1024x2048.size a
  hwx1_4 : ∀ i : grid1.Coords, EltTy.bits .f32 = 32 ∨ (Rect.block (s := S1024x2048) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S1024x2048.size a
  hwx1_5 : ∀ i : grid1.Coords, EltTy.bits .f32 = 32 ∨ (Rect.block (s := S1024x2048) S256x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x4096.size a ≤ S2048x4096.size a
  hwx1_6 : ∀ i : grid1.Coords, EltTy.bits .bf16 = 32 ∨ (Rect.block (s := S2048x4096) S512x4096.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x2048.size a
  hwx1_7 : ∀ i : grid1.Coords, EltTy.bits .f32 = 32 ∨ (Rect.block (s := S1x2048) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x2048.size a
  hwx1_8 : ∀ i : grid1.Coords, EltTy.bits .f32 = 32 ∨ (Rect.block (s := S1x2048) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x2048.size a
  hwx1_9 : ∀ i : grid1.Coords, EltTy.bits .f32 = 32 ∨ (Rect.block (s := S1x2048) S1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x512.size a ≤ S1024x2048.size a
  hwx1_10 : ∀ i : grid1.Coords, EltTy.bits .f32 = 32 ∨ (Rect.block (s := S1024x2048) S256x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x512.size a ≤ S1024x2048.size a
  hwx1_11 : ∀ i : grid1.Coords, EltTy.bits .f32 = 32 ∨ (Rect.block (s := S1024x2048) S256x512.size (cc1_transform_11 i) (hinb1_11 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S256x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S256x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x4096.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v7) S1x512.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v9_0) S256x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v9_1) S256x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S2048x4096 : Shape := ⟨2, ![2048, 4096]⟩
abbrev S2048 : Shape := ⟨1, ![2048]⟩
abbrev S1024x4096 : Shape := ⟨2, ![1024, 4096]⟩
abbrev S4096x2048 : Shape := ⟨2, ![4096, 2048]⟩
abbrev S1x2048 : Shape := ⟨2, ![1, 2048]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1024x4096, .f32⟩
  | .hbm, ⟨12, _⟩ => ⟨S4096x2048, .f32⟩
  | .hbm, ⟨13, _⟩ => ⟨S1024x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S4096x2048, .f32⟩
  | .hbm, ⟨26, _⟩ => ⟨S1024x2048, .f32⟩
  | .hbm, ⟨27, _⟩ => ⟨S1x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x4096, .f32⟩
  | .hbm, ⟨40, _⟩ => ⟨S4096x2048, .f32⟩
  | .hbm, ⟨41, _⟩ => ⟨S1024x2048, .f32⟩
  | .hbm, ⟨42, _⟩ => ⟨S1x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S_, .f32⟩
  | .hbm, ⟨47, _⟩ => ⟨S1024x2048, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S1024x2048, .f32⟩
  | .hbm, ⟨52, _⟩ => ⟨S1024x2048, .f32⟩
  | .hbm, ⟨53, _⟩ => ⟨S1x2048, .f32⟩
  | .hbm, ⟨54, _⟩ => ⟨S1024x2048, .f32⟩
  | .hbm, ⟨55, _⟩ => ⟨S1024x2048, .f32⟩
  | .hbm, ⟨56, _⟩ => ⟨S_, .f32⟩
  | .hbm, ⟨57, _⟩ => ⟨S1024x2048, .f32⟩
  | .hbm, ⟨58, _⟩ => ⟨S1024x2048, .f32⟩
  | .hbm, ⟨59, _⟩ => ⟨S_, .f32⟩
  | .hbm, ⟨60, _⟩ => ⟨S1024x2048, .f32⟩
  | .hbm, ⟨61, _⟩ => ⟨S1024x2048, .i1⟩
  | .hbm, ⟨62, _⟩ => ⟨S1024x2048, .f32⟩
  | .hbm, ⟨63, _⟩ => ⟨S1024x2048, .f32⟩
  | .hbm, ⟨64, _⟩ => ⟨S_, .f32⟩
  | .hbm, ⟨65, _⟩ => ⟨S1024x2048, .f32⟩
  | .hbm, ⟨66, _⟩ => ⟨S1024x2048, .i1⟩
  | .hbm, ⟨67, _⟩ => ⟨S1024x2048, .f32⟩
  | .hbm, ⟨68, _⟩ => ⟨S1024x2048, .f32⟩
  | .hbm, ⟨69, _⟩ => ⟨S1x2048, .f32⟩
  | .hbm, ⟨70, _⟩ => ⟨S1024x2048, .f32⟩
  | .hbm, ⟨71, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  concatenates_S1024x2048_S1024x2048_S1024x4096_d1 : Shape.Concatenates [S1024x2048, S1024x2048] S1024x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  dot_S1024x4096_S4096x2048_S1024x2048_1_0_0_1_n_n_wf : DotDims.WF S1024x4096 S4096x2048 S1024x2048 [1] [0] [0] [1] [] []

variable [Facts₀]

def dot_S1024x4096_S4096x2048_S1024x2048_1_0_0_1_n_n : DotDims S1024x4096 S4096x2048 S1024x2048 where
  lhsContracting := [1]
  rhsContracting := [0]
  lhsNonContracting := [0]
  rhsNonContracting := [1]
  lhsBatch := []
  rhsBatch := []
  wf := dot_S1024x4096_S4096x2048_S1024x2048_1_0_0_1_n_n_wf

class Facts : Prop extends Facts₀ where

variable [Facts]
-- ==== Proof.Kernel.Data0.lean ====
/-
  Region 0 (the r and z gates), its data: for a valuation `V` of the core's buffers at the region's entry, the block
  of each operand at a grid point, what one run of the body leaves in the two result blocks as a function of the
  operand blocks, and the proof data of the pipeline over them.

  Grid point t = (j, i), j the hidden tile (outer), i the batch tile (inner).  The body reads the batch tile's rows of
  x and of h_prev (256 x 2048 each), the hidden tile's rows of the two weight matrices (512 x 4096 each, whose columns
  0..2047 multiply x and 2048..4095 multiply h_prev) and the hidden tile of the two biases (1 x 512), and stores
      r = logistic (x . Wr[:, :2048]^T + h . Wr[:, 2048:]^T + b_r),   z = the same with Wz, b_z
  into the (i, j) blocks (256 x 512) of the two results.  Every result block is stored whole by one store.
-/
import proofs.«140406_j13340168421984_1_alg».proof.Proof.Gen.Kernel.Launch
import proofs.«140406_j13340168421984_1_alg».proof.Proof.Gen.Kernel.Skeleton
import proofs.«140406_j13340168421984_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Operand `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: a whole activation block, the two column halves of a weight block,
    a whole bias block, a whole result block. -/
abbrev rAct : Rect S256x2048 := Rect.unit (s := S256x2048) ![0, 0] S256x2048.size inb_S256x2048_S256x2048_0_0
abbrev rWlo : Rect S512x4096 := Rect.unit (s := S512x4096) ![0, 0] S512x2048.size inb_S512x4096_S512x2048_0_0
abbrev rWhi : Rect S512x4096 := Rect.unit (s := S512x4096) ![0, 2048] S512x2048.size inb_S512x4096_S512x2048_0_2048
abbrev rBias : Rect S1x512 := Rect.unit (s := S1x512) ![0, 0] S1x512.size inb_S1x512_S1x512_0_0
abbrev rOut : Rect S256x512 := Rect.unit (s := S256x512) ![0, 0] S256x512.size inb_S256x512_S256x512_0_0

/-- The r block after the body: its one store, over the x, h, W_r and b_r blocks. -/
def outR (x h : Vec F S256x2048 .f32) (w : Vec F S512x4096 .bf16) (b : Vec F S1x512 .f32) : Vec F S256x512 .f32 :=
  View.canon [⟨rOut, k0_pay3 (View.ld x rAct) (View.ld h rAct) (View.ld w rWlo) (View.ld w rWhi) (View.ld b rBias)⟩]

/-- The z block after the body: its one store, over the x, h, W_z and b_z blocks. -/
def outZ (x h : Vec F S256x2048 .f32) (w : Vec F S512x4096 .bf16) (b : Vec F S1x512 .f32) : Vec F S256x512 .f32 :=
  View.canon [⟨rOut, k0_pay4 (View.ld x rAct) (View.ld h rAct) (View.ld w rWlo) (View.ld w rWhi) (View.ld b rBias)⟩]

/-- One store of the whole block covers it. -/
theorem coverOut (p0 : Vec F S256x512 .f32) (y : S256x512.Idx) :
    ∃ pc ∈ ([⟨rOut, p0⟩] : List (View.Piece (Elt F) S256x512 .f32)), y ∈ pc.1.set :=
  View.cover_of_tiled [⟨rOut, p0⟩] S256x512.size (by rfl) y

/-- The proof data of region 0 on core `c`: the arrays as found; after the body each operand block unchanged and each
    result block at its store; the invariant only carries what the body never touches; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outR (iblk0 V c 0 t) (iblk0 V c 1 t) (iblk0 V c 2 t) (iblk0 V c 4 t)
    | ⟨7, _⟩ => outZ (iblk0 V c 0 t) (iblk0 V c 1 t) (iblk0 V c 3 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = outR (iblk0 V c 0 t) (iblk0 V c 1 t) (iblk0 V c 2 t) (iblk0 V c 4 t) := by dsimp only [dat0]
theorem after0_7 (c : Dev nD) (t : Fin cfg0.N) :
    (dat0 V c).after 7 t = outZ (iblk0 V c 0 t) (iblk0 V c 1 t) (iblk0 V c 3 t) (iblk0 V c 5 t) := by dsimp only [dat0]

end Cert.Kernel.Hand

end
-- ==== Proof.Kernel.Data1.lean ====
/-
  Region 1 (the candidate state and the gated update), its data: for a valuation `V` of the core's buffers at the
  region's entry, the block of each operand at a grid point, what one run of the body leaves in the two result
  blocks, and the proof data of the pipeline over them.

  Grid point t = (j, i), j the hidden tile (outer), i the batch tile (inner).  The body reads the batch tile's rows of
  x, of r and of h_prev (256 x 2048 each), the (i, j) blocks (256 x 512) of h_prev, of z and of the previous potential,
  the hidden tile's rows of W_c (512 x 4096: columns 0..2047 multiply x, 2048..4095 multiply r * h_prev) and the hidden
  tile of b_c, of the threshold and of the decay rate (1 x 512 each).  With
      n = tanh (x . Wc[:, :2048]^T + (r * h) . Wc[:, 2048:]^T + b_c),   p = pot + ((1 - z) * h + z * n),
      g = max (p - thr) 0
  it stores  [g > 0] * p  and  (p * [g <= 0]) * decay  into the (i, j) blocks of the two results, each by one store of
  the whole block.  h_prev is handed to the region twice (its row band and its block): the two windows share the array,
  each holding half of it.
-/
import proofs.«140406_j13340168421984_1_alg».proof.Proof.Gen.Kernel.Launch
import proofs.«140406_j13340168421984_1_alg».proof.Proof.Gen.Kernel.Skeleton
import proofs.«140406_j13340168421984_1_alg».proof.Proof.Gen.Kernel.Points
import proofs.«140406_j13340168421984_1_alg».proof.Proof.Kernel.Data0
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Operand `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The potential p after the update, over the x, r, h (band), h (block), z, pot, W_c and b_c blocks. -/
def potNew (x r h : Vec F S256x2048 .f32) (ht zt pt : Vec F S256x512 .f32) (w : Vec F S512x4096 .bf16) (b : Vec F S1x512 .f32) :
    FVec F S256x512 .f32 :=
  k1_pay4 (View.ld x rAct) (View.ld r rAct) (View.ld h rAct) (View.ld w rWlo) (View.ld w rWhi) (View.ld b rBias)
    (View.ld zt rOut) (View.ld ht rOut) (View.ld pt rOut)

/-- p minus the threshold. -/
def potGap (x r h : Vec F S256x2048 .f32) (ht zt pt : Vec F S256x512 .f32) (w : Vec F S512x4096 .bf16) (b thr : Vec F S1x512 .f32) :
    FVec F S256x512 .f32 :=
  k1_pay5 (View.ld x rAct) (View.ld r rAct) (View.ld h rAct) (View.ld w rWlo) (View.ld w rWhi) (View.ld b rBias)
    (View.ld zt rOut) (View.ld ht rOut) (View.ld pt rOut) (View.ld thr rBias)

/-- The activated block after the body: its one store. -/
def outAct (x r h : Vec F S256x2048 .f32) (ht zt pt : Vec F S256x512 .f32) (w : Vec F S512x4096 .bf16) (b thr : Vec F S1x512 .f32) :
    Vec F S256x512 .f32 :=
  View.canon [⟨rOut, k1_pay2 (potNew x r h ht zt pt w b) (potGap x r h ht zt pt w b thr) (k1_pay6 (F := F))⟩]

/-- The non-gated potential block after the body: its one store. -/
def outPot (x r h : Vec F S256x2048 .f32) (ht zt pt : Vec F S256x512 .f32) (w : Vec F S512x4096 .bf16) (b thr dec : Vec F S1x512 .f32) :
    Vec F S256x512 .f32 :=
  View.canon [⟨rOut, k1_pay3 (potNew x r h ht zt pt w b) (potGap x r h ht zt pt w b thr) (k1_pay6 (F := F)) (View.ld dec rBias)⟩]

/-- The proof data of region 1 on core `c`: the arrays as found; after the body each operand block unchanged and each
    result block at its store; the invariant only carries what the body never touches; nothing owed; h_prev's array
    held half by its band window and half by its block window, every other operand whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outAct (iblk1 V c 0 t) (iblk1 V c 1 t) (iblk1 V c 2 t) (iblk1 V c 3 t) (iblk1 V c 4 t) (iblk1 V c 5 t)
        (iblk1 V c 6 t) (iblk1 V c 7 t) (iblk1 V c 8 t)
    | ⟨11, _⟩ => outPot (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = outAct (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]
theorem after1_11 (c : Dev nD) (t : Fin cfg1.N) :
    (dat1 V c).after 11 t = outPot (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

end Cert.Kernel.Hand

end
-- ==== Proof.Kernel.Vals.lean ====
/-
  The contents of the core's buffers at each boundary of the kernel program's @main: at launch; after the stretch of
  host operations (the three weight matrices cast to bf16, the five vectors reshaped to rows); after region 0, whose
  two results hold what its pipeline's write-backs leave; after region 1 likewise. No item writes an argument array,
  and each later boundary's contents read back through the earlier ones.
-/
import proofs.«140406_j13340168421984_1_alg».proof.Proof.Kernel.Data0
import proofs.«140406_j13340168421984_1_alg».proof.Proof.Kernel.Data1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The buffers' contents at each boundary -/

/-- At launch. -/
abbrev W0 : Dev nD → Valuation τ sig (Elt F) := fun c b => m (c, b)
/-- After the host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (region 1's entry): its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its two results at what the pipeline leaves, every other buffer as before (its ten operands are
    only read). -/
def W3 (c : Dev nD) : Valuation τ sig (Elt F) :=
  Function.update (Function.update (W2 m c) main_v9_0 ((dat1 (V2 m) c).arrAt 10 cfg1.N : Buf (Elt F) ((c : Thread nD τ).loc main_v9_0)))
    main_v9_1 ((dat1 (V2 m) c).arrAt 11 cfg1.N : Buf (Elt F) ((c : Thread nD τ).loc main_v9_1))
abbrev V3 : (c : Dev nD) → (b : Ref sig .tc) → Buf (Elt F) ((c : Thread nD τ).loc b) := fun c b => W3 m c b
theorem W3_of (c : Dev nD) (r : Ref sig .tc) (h : r ∉ ([main_v9_0, main_v9_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1)]
theorem W3_act (c : Dev nD) : W3 m c main_v9_0 = (dat1 (V2 m) c).arrAt 10 cfg1.N := by
  unfold W3
  rw [Function.update_of_ne (StableHlo.devRef_ne_of_ne (by decide) : (Proc.devRef .tc main_v9_0 : DevRef τ sig) ≠ Proc.devRef .tc main_v9_1), Function.update_self]
theorem W3_pot (c : Dev nD) : W3 m c main_v9_1 = (dat1 (V2 m) c).arrAt 11 cfg1.N := by
  unfold W3
  rw [Function.update_self]
/-- An operand of region 1 is left as found. -/
theorem arrAt1_in (c : Dev nD) (w : Fin cfg1.W) (hw : (cfg1.win w).isOut = false) :
    (dat1 (V2 m) c).arrAt w cfg1.N = V2 m c (Pipeline.arrRef spec1 w) :=
  ((dat1 (V2 m) c).arrAt_in w hw _).trans (A_eq1 (V2 m) c w)
theorem hF1 (c : Dev nD) : ∀ w : Fin cfg1.W, (dat1 (V2 m) c).arrAt w cfg1.N = V3 m c (Pipeline.arrRef spec1 w)
  | ⟨0, _⟩ => (arrAt1_in m c 0 rfl).trans (W3_of m c main_arg0 (by decide)).symm
  | ⟨1, _⟩ => (arrAt1_in m c 1 rfl).trans (W3_of m c main_v8_0 (by decide)).symm
  | ⟨2, _⟩ => (arrAt1_in m c 2 rfl).trans (W3_of m c main_arg1 (by decide)).symm
  | ⟨3, _⟩ => (arrAt1_in m c 3 rfl).trans (W3_of m c main_arg1 (by decide)).symm
  | ⟨4, _⟩ => (arrAt1_in m c 4 rfl).trans (W3_of m c main_v8_1 (by decide)).symm
  | ⟨5, _⟩ => (arrAt1_in m c 5 rfl).trans (W3_of m c main_arg2 (by decide)).symm
  | ⟨6, _⟩ => (arrAt1_in m c 6 rfl).trans (W3_of m c main_v2 (by decide)).symm
  | ⟨7, _⟩ => (arrAt1_in m c 7 rfl).trans (W3_of m c main_v5 (by decide)).symm
  | ⟨8, _⟩ => (arrAt1_in m c 8 rfl).trans (W3_of m c main_v6 (by decide)).symm
  | ⟨9, _⟩ => (arrAt1_in m c 9 rfl).trans (W3_of m c main_v7 (by decide)).symm
  | ⟨10, _⟩ => (W3_act m c).symm
  | ⟨11, _⟩ => (W3_pot m c).symm
theorem hrest1 (c : Dev nD) : ∀ b, b ∉ Finset.univ.image (Pipeline.arrRef spec1) → V3 m c b = V2 m c b :=
  fun b hb => W3_of m c b (by
    intro hmem
    rcases List.mem_cons.mp hmem with e | hmem
    · exact hb (Finset.mem_image.mpr ⟨10, Finset.mem_univ _, e.symm⟩)
    · rcases List.mem_cons.mp hmem with e | hmem
      · exact hb (Finset.mem_image.mpr ⟨11, Finset.mem_univ _, e.symm⟩)
      · exact absurd hmem List.not_mem_nil)

/-! ## No item writes an argument -/

theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_main_arg0 m c)
theorem W3_main_arg0 (c : Dev nD) : W3 m c (Proc.devRef .tc main_arg0) = m ((c : Thread nD τ).loc main_arg0) :=
  (W3_of m c main_arg0 (by decide)).trans (W2_main_arg0 m c)
theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg1 (c : Dev nD) : W2 m c (Proc.devRef .tc main_arg1) = m ((c : Thread nD τ).loc main_arg1) :=
  ((W2_arr m c 1).trans (((dat0 (V1 m) c).arrAt_in 1 rfl _).trans (A_eq0 (V1 m) c 1))).trans (W1_main_arg1 m c)
theorem W3_main_arg1 (c : Dev nD) : W3 m c (Proc.devRef .tc main_arg1) = m ((c : Thread nD τ).loc main_arg1) :=
  (W3_of m c main_arg1 (by decide)).trans (W2_main_arg1 m c)
theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg2 (c : Dev nD) : W2 m c (Proc.devRef .tc main_arg2) = m ((c : Thread nD τ).loc main_arg2) :=
  (W2_of_ne m c main_arg2 (by decide)).trans (W1_main_arg2 m c)
theorem W3_main_arg2 (c : Dev nD) : W3 m c (Proc.devRef .tc main_arg2) = m ((c : Thread nD τ).loc main_arg2) :=
  (W3_of m c main_arg2 (by decide)).trans (W2_main_arg2 m c)
theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (W3_of m c main_arg3 (by decide)).trans (W2_main_arg3 m c)
theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (W3_of m c main_arg4 (by decide)).trans (W2_main_arg4 m c)
theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (W3_of m c main_arg5 (by decide)).trans (W2_main_arg5 m c)
theorem W1_main_arg6 (c : Dev nD) : W1 m c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (W3_of m c main_arg6 (by decide)).trans (W2_main_arg6 m c)
theorem W1_main_arg7 (c : Dev nD) : W1 m c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (W3_of m c main_arg7 (by decide)).trans (W2_main_arg7 m c)
theorem W1_main_arg8 (c : Dev nD) : W1 m c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg8 (c : Dev nD) : W2 m c (Proc.devRef .tc main_arg8) = m ((c : Thread nD τ).loc main_arg8) :=
  (W2_of_ne m c main_arg8 (by decide)).trans (W1_main_arg8 m c)
theorem W3_main_arg8 (c : Dev nD) : W3 m c (Proc.devRef .tc main_arg8) = m ((c : Thread nD τ).loc main_arg8) :=
  (W3_of m c main_arg8 (by decide)).trans (W2_main_arg8 m c)
theorem W1_main_arg9 (c : Dev nD) : W1 m c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg9 (c : Dev nD) : W2 m c (Proc.devRef .tc main_arg9) = m ((c : Thread nD τ).loc main_arg9) :=
  (W2_of_ne m c main_arg9 (by decide)).trans (W1_main_arg9 m c)
theorem W3_main_arg9 (c : Dev nD) : W3 m c (Proc.devRef .tc main_arg9) = m ((c : Thread nD τ).loc main_arg9) :=
  (W3_of m c main_arg9 (by decide)).trans (W2_main_arg9 m c)
theorem W1_main_arg10 (c : Dev nD) : W1 m c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg10 (c : Dev nD) : W2 m c (Proc.devRef .tc main_arg10) = m ((c : Thread nD τ).loc main_arg10) :=
  (W2_of_ne m c main_arg10 (by decide)).trans (W1_main_arg10 m c)
theorem W3_main_arg10 (c : Dev nD) : W3 m c (Proc.devRef .tc main_arg10) = m ((c : Thread nD τ).loc main_arg10) :=
  (W3_of m c main_arg10 (by decide)).trans (W2_main_arg10 m c)

end Cert.Kernel.Hand

end
-- ==== Proof.Kernel.Body0.lean ====
/-
  Region 0 (the r and z gates), its body: one run of the kernel function on whole staging buffers — the six operands'
  holding given contents, the two results' holding anything — ends with the operands' as they were and each result's
  at its one store; and the same at every grid point of the pipeline, where each operand's staging buffer holds the
  operand's block at that point whether or not the point fetched it (a weight or bias block is fetched once per hidden
  tile and read at the four batch tiles that follow).
-/
import proofs.«140406_j13340168421984_1_alg».proof.Proof.Kernel.Data0
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each operand's staging buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-! ## The body on whole staging buffers -/

set_option maxHeartbeats 1000000 in
theorem sound_kernel0 (c : Dev nD) (E : Set ℕ) (i : grid0.Coords)
    (arg2 : Memref sig .tc .vmem S256x2048 .f32) (harg2 : arg2.IsWhole) (arg3 : Memref sig .tc .vmem S256x2048 .f32) (harg3 : arg3.IsWhole)
    (arg4 : Memref sig .tc .vmem S512x4096 .bf16) (harg4 : arg4.IsWhole) (arg5 : Memref sig .tc .vmem S512x4096 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x512 .f32) (harg8 : arg8.IsWhole) (arg9 : Memref sig .tc .vmem S256x512 .f32) (harg9 : arg9.IsWhole)
    (x0 x1 : Vec F S256x2048 .f32) (x2 x3 : Vec F S512x4096 .bf16) (x4 x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outR x0 x1 x2 x4) ∗ owns (c : Thread nD τ) arg9 fullShare (outZ x0 x1 x3 x5)) -∗ K ⟨⟩))
      ⊢ wp frame (wpE (defs₀ (F := F)) Variants.none c none) E
          (cc0__rz_kernel i arg2 harg2 arg3 harg3 arg4 harg4 arg5 harg5 arg6 harg6 arg7 harg7 arg8 harg8 arg9 harg9) K := by
  simp only [cc0__rz_kernel_eq_skeleton]; unfold cc0__rz_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverOut _)
  iexists _; isplitr
  swap; · iexact H7
  ipureintro
  try dsimp only
  exact View.read_writes_eq_canon _ _ _ (coverOut _)

/-! ## The body obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  Region 1 (the candidate state and the gated update), its body: one run of the kernel function on whole staging
  buffers — the ten operands' holding given contents, the two results' holding anything — ends with the operands' as
  they were and each result's at its one store; and the same at every grid point of the pipeline, where each operand's
  staging buffer holds the operand's block at that point whether or not the point fetched it.
-/
import proofs.«140406_j13340168421984_1_alg».proof.Proof.Kernel.Data1
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each operand's staging buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

/-! ## The body on whole staging buffers -/

set_option maxHeartbeats 2000000 in
theorem sound_kernel1 (c : Dev nD) (E : Set ℕ) (i : grid1.Coords)
    (arg2 : Memref sig .tc .vmem S256x2048 .f32) (harg2 : arg2.IsWhole)
    (arg3 : Memref sig .tc .vmem S256x2048 .f32) (harg3 : arg3.IsWhole)
    (arg4 : Memref sig .tc .vmem S256x2048 .f32) (harg4 : arg4.IsWhole)
    (arg5 : Memref sig .tc .vmem S256x512 .f32) (harg5 : arg5.IsWhole)
    (arg6 : Memref sig .tc .vmem S256x512 .f32) (harg6 : arg6.IsWhole)
    (arg7 : Memref sig .tc .vmem S256x512 .f32) (harg7 : arg7.IsWhole)
    (arg8 : Memref sig .tc .vmem S512x4096 .bf16) (harg8 : arg8.IsWhole)
    (arg9 : Memref sig .tc .vmem S1x512 .f32) (harg9 : arg9.IsWhole)
    (arg10 : Memref sig .tc .vmem S1x512 .f32) (harg10 : arg10.IsWhole)
    (arg11 : Memref sig .tc .vmem S1x512 .f32) (harg11 : arg11.IsWhole)
    (arg12 : Memref sig .tc .vmem S256x512 .f32) (harg12 : arg12.IsWhole)
    (arg13 : Memref sig .tc .vmem S256x512 .f32) (harg13 : arg13.IsWhole)
    (x0 x1 x2 : Vec F S256x2048 .f32) (x3 x4 x5 : Vec F S256x512 .f32) (x6 : Vec F S512x4096 .bf16) (x7 x8 x9 : Vec F S1x512 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare (outAct x0 x1 x2 x3 x4 x5 x6 x7 x8) ∗ owns (c : Thread nD τ) arg13 fullShare (outPot x0 x1 x2 x3 x4 x5 x6 x7 x8 x9)) -∗ K ⟨⟩))
      ⊢ wp frame (wpE (defs₀ (F := F)) Variants.none c none) E
          (cc1__n_kernel i arg2 harg2 arg3 harg3 arg4 harg4 arg5 harg5 arg6 harg6 arg7 harg7 arg8 harg8 arg9 harg9 arg10 harg10 arg11 harg11 arg12 harg12 arg13 harg13) K := by
  simp only [cc1__n_kernel_eq_skeleton]; unfold cc1__n_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverOut _)
  iexists _; isplitr
  swap; · iexact H11
  ipureintro
  try dsimp only
  exact View.read_writes_eq_canon _ _ _ (coverOut _)

/-! ## The body obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Arrays1.lean ====
/-
  Region 1's arrays among the core's unscoped buffers.

  The region is handed twelve windows over eleven distinct buffers: h_prev's buffer stands behind two windows (its row
  band and its block), each holding half of it.  At the region's entry the core's unscoped buffers, each whole at a
  valuation, split into the region's arrays at their entry contents (h_prev's buffer halved between its two windows,
  every other array whole) and the unscoped buffers no window stages.  At its exit the arrays at their final contents
  and the untouched rest make the core's unscoped buffers again, at any valuation that holds each array's final
  contents and agrees with the entry valuation off the arrays: the two halves of h_prev's buffer hold the same
  contents there and rejoin.
-/
import proofs.«140406_j13340168421984_1_alg».proof.Proof.Kernel.Data1
import Idealize.ShloMosaic.Lib.Pipeline.RegionsLoop
import Idealize.ShloMosaic.Lib.Pipeline.Kit

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows, one by one, each whole at a valuation. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v8_0) ↦{fullShare} W main_v8_0)
          ∗ (((c : Thread nD τ).loc main_arg1) ↦{fullShare} W main_arg1) ∗ (((c : Thread nD τ).loc main_v8_1) ↦{fullShare} W main_v8_1)
          ∗ (((c : Thread nD τ).loc main_arg2) ↦{fullShare} W main_arg2) ∗ (((c : Thread nD τ).loc main_v2) ↦{fullShare} W main_v2)
          ∗ (((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v9_0) ↦{fullShare} W main_v9_0)
          ∗ (((c : Thread nD τ).loc main_v9_1) ↦{fullShare} W main_v9_1)) := by
  unfold Pipeline.arrBufs
  exact bigSep_eq_bigSepL_of_eq
    [main_arg0, main_v8_0, main_arg1, main_v8_1, main_arg2, main_v2, main_v5, main_v6, main_v7, main_v9_0, main_v9_1]
    (by decide) (by decide) _

/-! The share each window holds of its array: an operand window the share the proof data names (h_prev's band window
    the left half, its block window the right half, every other the full share), a result window the full share. -/
theorem share1_0 (c : Dev nD) : (dat1 V c).share 0 = fullShare := by
  unfold Dat.share
  rw [if_neg (by rw [show (cfg1.win 0).isOut = false from rfl]; exact Bool.false_ne_true)]
  dsimp only [dat1]
  rfl
theorem share1_1 (c : Dev nD) : (dat1 V c).share 1 = fullShare := by
  unfold Dat.share
  rw [if_neg (by rw [show (cfg1.win 1).isOut = false from rfl]; exact Bool.false_ne_true)]
  dsimp only [dat1]
  rfl
theorem share1_2 (c : Dev nD) : (dat1 V c).share 2 = fullShare.left := by
  unfold Dat.share
  rw [if_neg (by rw [show (cfg1.win 2).isOut = false from rfl]; exact Bool.false_ne_true)]
  dsimp only [dat1]
  rfl
theorem share1_3 (c : Dev nD) : (dat1 V c).share 3 = fullShare.right := by
  unfold Dat.share
  rw [if_neg (by rw [show (cfg1.win 3).isOut = false from rfl]; exact Bool.false_ne_true)]
  dsimp only [dat1]
  rfl
theorem share1_4 (c : Dev nD) : (dat1 V c).share 4 = fullShare := by
  unfold Dat.share
  rw [if_neg (by rw [show (cfg1.win 4).isOut = false from rfl]; exact Bool.false_ne_true)]
  dsimp only [dat1]
  rfl
theorem share1_5 (c : Dev nD) : (dat1 V c).share 5 = fullShare := by
  unfold Dat.share
  rw [if_neg (by rw [show (cfg1.win 5).isOut = false from rfl]; exact Bool.false_ne_true)]
  dsimp only [dat1]
  rfl
theorem share1_6 (c : Dev nD) : (dat1 V c).share 6 = fullShare := by
  unfold Dat.share
  rw [if_neg (by rw [show (cfg1.win 6).isOut = false from rfl]; exact Bool.false_ne_true)]
  dsimp only [dat1]
  rfl
theorem share1_7 (c : Dev nD) : (dat1 V c).share 7 = fullShare := by
  unfold Dat.share
  rw [if_neg (by rw [show (cfg1.win 7).isOut = false from rfl]; exact Bool.false_ne_true)]
  dsimp only [dat1]
  rfl
theorem share1_8 (c : Dev nD) : (dat1 V c).share 8 = fullShare := by
  unfold Dat.share
  rw [if_neg (by rw [show (cfg1.win 8).isOut = false from rfl]; exact Bool.false_ne_true)]
  dsimp only [dat1]
  rfl
theorem share1_9 (c : Dev nD) : (dat1 V c).share 9 = fullShare := by
  unfold Dat.share
  rw [if_neg (by rw [show (cfg1.win 9).isOut = false from rfl]; exact Bool.false_ne_true)]
  dsimp only [dat1]
  rfl
theorem share1_10 (c : Dev nD) : (dat1 V c).share 10 = fullShare := by
  unfold Dat.share
  rw [if_pos (show (cfg1.win 10).isOut = true from rfl)]
theorem share1_11 (c : Dev nD) : (dat1 V c).share 11 = fullShare := by
  unfold Dat.share
  rw [if_pos (show (cfg1.win 11).isOut = true from rfl)]

/-- One window's array, a whole buffer, as the points-to of its buffer at the share the window holds. -/
theorem arr1_at (c : Dev nD) (w : Fin cfg1.W) (q : PosShare TreeShare) (hq : (dat1 V c).share w = q)
    (f : Buf (Elt F) ((cfg1.win w).arr.view.loc (c : Thread nD τ))) :
    ((cfg1.win w).arr.view.loc (c : Thread nD τ) ↦[(cfg1.win w).arr.view.set]{(dat1 V c).share w} f : sProp 𝕄)
      = ((c : Thread nD τ).loc (Pipeline.arrRef spec1 w) ↦{q} f) := by
  rw [hq, (Gen.arr_whole1 w).set_eq_univ]

/-- The region's arrays window by window: every window's array is a whole buffer; h_prev's buffer is held at the left
    half by its band window and at the right half by its block window, every other array at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg0) ↦{fullShare} Fn 0) ∗ (((c : Thread nD τ).loc main_v8_0) ↦{fullShare} Fn 1)
          ∗ (((c : Thread nD τ).loc main_arg1) ↦{fullShare.left} Fn 2) ∗ (((c : Thread nD τ).loc main_arg1) ↦{fullShare.right} Fn 3)
          ∗ (((c : Thread nD τ).loc main_v8_1) ↦{fullShare} Fn 4) ∗ (((c : Thread nD τ).loc main_arg2) ↦{fullShare} Fn 5)
          ∗ (((c : Thread nD τ).loc main_v2) ↦{fullShare} Fn 6) ∗ (((c : Thread nD τ).loc main_v5) ↦{fullShare} Fn 7)
          ∗ (((c : Thread nD τ).loc main_v6) ↦{fullShare} Fn 8) ∗ (((c : Thread nD τ).loc main_v7) ↦{fullShare} Fn 9)
          ∗ (((c : Thread nD τ).loc main_v9_0) ↦{fullShare} Fn 10) ∗ (((c : Thread nD τ).loc main_v9_1) ↦{fullShare} Fn 11)) := by
  unfold Dat.arrays
  rw [Gen.bigSep_W1]
  exact congrArg₂ BI.sep (arr1_at V c 0 _ (share1_0 V c) _) (congrArg₂ BI.sep (arr1_at V c 1 _ (share1_1 V c) _)
    (congrArg₂ BI.sep (arr1_at V c 2 _ (share1_2 V c) _) (congrArg₂ BI.sep (arr1_at V c 3 _ (share1_3 V c) _)
    (congrArg₂ BI.sep (arr1_at V c 4 _ (share1_4 V c) _) (congrArg₂ BI.sep (arr1_at V c 5 _ (share1_5 V c) _)
    (congrArg₂ BI.sep (arr1_at V c 6 _ (share1_6 V c) _) (congrArg₂ BI.sep (arr1_at V c 7 _ (share1_7 V c) _)
    (congrArg₂ BI.sep (arr1_at V c 8 _ (share1_8 V c) _) (congrArg₂ BI.sep (arr1_at V c 9 _ (share1_9 V c) _)
    (congrArg₂ BI.sep (arr1_at V c 10 _ (share1_10 V c) _) (arr1_at V c 11 _ (share1_11 V c) _)))))))))))

/-- The core's unscoped buffers at a valuation are the distinct buffers behind the region's windows and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ (Ix := Unit) (Name := ℕ) (U := UR sig nD τ) (Lvl := ℕ) cfgs 1 Gen.winFacts₀1.arr_unscoped c W

/-- ENTRY: the core's unscoped buffers at V split into the region's arrays at their entry contents (h_prev's buffer
    halved between its band window and its block window) and the unscoped buffers no window stages. -/
theorem arrays1_of_unscopedBufs (c : Dev nD) :
    (unscopedBufs c (V c) : sProp 𝕄) ⊢ iprop((dat1 V c).arrays ((dat1 V c).arrAt · 0) ∗ Pipeline.unscopedRest spec1 c (V c)) := by
  have hFn : ((dat1 V c).arrAt · 0) = fun w => V c (Pipeline.arrRef spec1 w) :=
    funext fun w => (show (dat1 V c).arrAt w 0 = (dat1 V c).A w from rfl).trans (A_eq1 V c w)
  rw [unscopedBufs_split1, arrBufs1_eq, hFn, arrays1_eq]
  iintro ⟨⟨H0, H1, H2, H4, H5, H6, H7, H8, H9, H10, H11⟩, Hrest⟩
  ihave H2 := (pointsTo_share (PosShare.mem_left_op_right fullShare)).1 $$ H2
  icases H2 with ⟨H2, H3⟩
  isplitr [Hrest]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hrest

/-- EXIT: the arrays at their final contents and the untouched rest make the core's unscoped buffers at any valuation V'
    that holds each array's final contents and agrees with V elsewhere: both halves of h_prev's buffer hold what V'
    holds there, and rejoin. -/
theorem unscopedBufs_of_arrays1 (c : Dev nD) (V' : (b : Ref sig .tc) → Buf (Elt F) ((c : Thread nD τ).loc b))
    (hF : ∀ w : Fin cfg1.W, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hFn : ((dat1 V c).arrAt · cfg1.N) = fun w => V' (Pipeline.arrRef spec1 w) := funext hF
  have hR : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs_split1, arrBufs1_eq, hFn, arrays1_eq, hR]
  iintro ⟨⟨H0, H1, H2, H3, H4, H5, H6, H7, H8, H9, H10, H11⟩, Hrest⟩
  ihave H2 := (pointsTo_share (PosShare.mem_left_op_right fullShare)).2 $$ [H2 H3]
  · isplitl [H2] <;> iassumption
  isplitr [Hrest]
  · isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hrest

end Cert.Kernel.Hand

end
-- ==== Proof.Kernel.Run.lean ====
/-
  The kernel program's run: @main is a stretch of host operations, then region 0 (the gates r and z), then region 1
  (the candidate and the gated update). Each region is entered with every unscoped buffer of the core at the boundary's
  contents and left with them at the next boundary's; region 1 holds the array its band window and its block window
  share halved between the two and gives it back whole. Every weakly fair execution ends with every buffer at the last
  boundary's contents; in particular every argument array ends as launched.
-/
import proofs.«140406_j13340168421984_1_alg».proof.Proof.Kernel.Vals
import proofs.«140406_j13340168421984_1_alg».proof.Proof.Kernel.Body0
import proofs.«140406_j13340168421984_1_alg».proof.Proof.Kernel.Body1
import proofs.«140406_j13340168421984_1_alg».proof.Proof.Kernel.Arrays1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data of both pipelines, the thread state, the regions as segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. The array
    its band window and its block window share enters halved between them and leaves rejoined. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m) c (V3 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and ends
    with every unscoped buffer of every core at `W3`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.Kernel.Hand

end
-- ==== Proof.KernelIdeal.Data0.lean ====
/-
  Region 0 (the r and z gates), its data: for a valuation `V` of the core's buffers at the region's entry, the block
  of each operand at a grid point, what one run of the body leaves in the two result blocks as a function of the
  operand blocks, and the proof data of the pipeline over them.

  Grid point t = (j, i), j the hidden tile (outer), i the batch tile (inner).  The body reads the batch tile's rows of
  x and of h_prev (256 x 2048 each), the hidden tile's rows of the two weight matrices (512 x 4096 each, whose columns
  0..2047 multiply x and 2048..4095 multiply h_prev) and the hidden tile of the two biases (1 x 512), and stores
      r = logistic (x . Wr[:, :2048]^T + h . Wr[:, 2048:]^T + b_r),   z = the same with Wz, b_z
  into the (i, j) blocks (256 x 512) of the two results.  Every result block is stored whole by one store.
-/
import proofs.«140406_j13340168421984_1_alg».proof.Proof.Gen.KernelIdeal.Launch
import proofs.«140406_j13340168421984_1_alg».proof.Proof.Gen.KernelIdeal.Skeleton
import proofs.«140406_j13340168421984_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Operand `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body reads and writes: a whole activation block, the two column halves of a weight block,
    a whole bias block, a whole result block. -/
abbrev rAct : Rect S256x2048 := Rect.unit (s := S256x2048) ![0, 0] S256x2048.size inb_S256x2048_S256x2048_0_0
abbrev rWlo : Rect S512x4096 := Rect.unit (s := S512x4096) ![0, 0] S512x2048.size inb_S512x4096_S512x2048_0_0
abbrev rWhi : Rect S512x4096 := Rect.unit (s := S512x4096) ![0, 2048] S512x2048.size inb_S512x4096_S512x2048_0_2048
abbrev rBias : Rect S1x512 := Rect.unit (s := S1x512) ![0, 0] S1x512.size inb_S1x512_S1x512_0_0
abbrev rOut : Rect S256x512 := Rect.unit (s := S256x512) ![0, 0] S256x512.size inb_S256x512_S256x512_0_0

/-- The r block after the body: its one store, over the x, h, W_r and b_r blocks. -/
def outR (x h : Vec F S256x2048 .f32) (w : Vec F S512x4096 .bf16) (b : Vec F S1x512 .f32) : Vec F S256x512 .f32 :=
  View.canon [⟨rOut, k0_pay3 (View.ld x rAct) (View.ld h rAct) (View.ld w rWlo) (View.ld w rWhi) (View.ld b rBias)⟩]

/-- The z block after the body: its one store, over the x, h, W_z and b_z blocks. -/
def outZ (x h : Vec F S256x2048 .f32) (w : Vec F S512x4096 .bf16) (b : Vec F S1x512 .f32) : Vec F S256x512 .f32 :=
  View.canon [⟨rOut, k0_pay4 (View.ld x rAct) (View.ld h rAct) (View.ld w rWlo) (View.ld w rWhi) (View.ld b rBias)⟩]

/-- One store of the whole block covers it. -/
theorem coverOut (p0 : Vec F S256x512 .f32) (y : S256x512.Idx) :
    ∃ pc ∈ ([⟨rOut, p0⟩] : List (View.Piece (Elt F) S256x512 .f32)), y ∈ pc.1.set :=
  View.cover_of_tiled [⟨rOut, p0⟩] S256x512.size (by rfl) y

/-- The proof data of region 0 on core `c`: the arrays as found; after the body each operand block unchanged and each
    result block at its store; the invariant only carries what the body never touches; nothing owed; whole shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outR (iblk0 V c 0 t) (iblk0 V c 1 t) (iblk0 V c 2 t) (iblk0 V c 4 t)
    | ⟨7, _⟩ => outZ (iblk0 V c 0 t) (iblk0 V c 1 t) (iblk0 V c 3 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = outR (iblk0 V c 0 t) (iblk0 V c 1 t) (iblk0 V c 2 t) (iblk0 V c 4 t) := by dsimp only [dat0]
theorem after0_7 (c : Dev nD) (t : Fin cfg0.N) :
    (dat0 V c).after 7 t = outZ (iblk0 V c 0 t) (iblk0 V c 1 t) (iblk0 V c 3 t) (iblk0 V c 5 t) := by dsimp only [dat0]

end Cert.KernelIdeal.Hand

end
-- ==== Proof.KernelIdeal.Data1.lean ====
/-
  Region 1 (the candidate state and the gated update), its data: for a valuation `V` of the core's buffers at the
  region's entry, the block of each operand at a grid point, what one run of the body leaves in the two result
  blocks, and the proof data of the pipeline over them.

  Grid point t = (j, i), j the hidden tile (outer), i the batch tile (inner).  The body reads the batch tile's rows of
  x, of r and of h_prev (256 x 2048 each), the (i, j) blocks (256 x 512) of h_prev, of z and of the previous potential,
  the hidden tile's rows of W_c (512 x 4096: columns 0..2047 multiply x, 2048..4095 multiply r * h_prev) and the hidden
  tile of b_c, of the threshold and of the decay rate (1 x 512 each).  With
      n = tanh (x . Wc[:, :2048]^T + (r * h) . Wc[:, 2048:]^T + b_c),   p = pot + ((1 - z) * h + z * n),
      g = max (p - thr) 0
  it stores  [g > 0] * p  and  (p * [g <= 0]) * decay  into the (i, j) blocks of the two results, each by one store of
  the whole block.  h_prev is handed to the region twice (its row band and its block): the two windows share the array,
  each holding half of it.
-/
import proofs.«140406_j13340168421984_1_alg».proof.Proof.Gen.KernelIdeal.Launch
import proofs.«140406_j13340168421984_1_alg».proof.Proof.Gen.KernelIdeal.Skeleton
import proofs.«140406_j13340168421984_1_alg».proof.Proof.Gen.KernelIdeal.Points
import proofs.«140406_j13340168421984_1_alg».proof.Proof.KernelIdeal.Data0
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Operand `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The potential p after the update, over the x, r, h (band), h (block), z, pot, W_c and b_c blocks. -/
def potNew (x r h : Vec F S256x2048 .f32) (ht zt pt : Vec F S256x512 .f32) (w : Vec F S512x4096 .bf16) (b : Vec F S1x512 .f32) :
    FVec F S256x512 .f32 :=
  k1_pay4 (View.ld x rAct) (View.ld r rAct) (View.ld h rAct) (View.ld w rWlo) (View.ld w rWhi) (View.ld b rBias)
    (View.ld zt rOut) (View.ld ht rOut) (View.ld pt rOut)

/-- p minus the threshold. -/
def potGap (x r h : Vec F S256x2048 .f32) (ht zt pt : Vec F S256x512 .f32) (w : Vec F S512x4096 .bf16) (b thr : Vec F S1x512 .f32) :
    FVec F S256x512 .f32 :=
  k1_pay5 (View.ld x rAct) (View.ld r rAct) (View.ld h rAct) (View.ld w rWlo) (View.ld w rWhi) (View.ld b rBias)
    (View.ld zt rOut) (View.ld ht rOut) (View.ld pt rOut) (View.ld thr rBias)

/-- The activated block after the body: its one store. -/
def outAct (x r h : Vec F S256x2048 .f32) (ht zt pt : Vec F S256x512 .f32) (w : Vec F S512x4096 .bf16) (b thr : Vec F S1x512 .f32) :
    Vec F S256x512 .f32 :=
  View.canon [⟨rOut, k1_pay2 (potNew x r h ht zt pt w b) (potGap x r h ht zt pt w b thr) (k1_pay6 (F := F))⟩]

/-- The non-gated potential block after the body: its one store. -/
def outPot (x r h : Vec F S256x2048 .f32) (ht zt pt : Vec F S256x512 .f32) (w : Vec F S512x4096 .bf16) (b thr dec : Vec F S1x512 .f32) :
    Vec F S256x512 .f32 :=
  View.canon [⟨rOut, k1_pay3 (potNew x r h ht zt pt w b) (potGap x r h ht zt pt w b thr) (k1_pay6 (F := F)) (View.ld dec rBias)⟩]

/-- The proof data of region 1 on core `c`: the arrays as found; after the body each operand block unchanged and each
    result block at its store; the invariant only carries what the body never touches; nothing owed; h_prev's array
    held half by its band window and half by its block window, every other operand whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => outAct (iblk1 V c 0 t) (iblk1 V c 1 t) (iblk1 V c 2 t) (iblk1 V c 3 t) (iblk1 V c 4 t) (iblk1 V c 5 t)
        (iblk1 V c 6 t) (iblk1 V c 7 t) (iblk1 V c 8 t)
    | ⟨11, _⟩ => outPot (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = outAct (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]
theorem after1_11 (c : Dev nD) (t : Fin cfg1.N) :
    (dat1 V c).after 11 t = outPot (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

end Cert.KernelIdeal.Hand

end
-- ==== Proof.KernelIdeal.Vals.lean ====
/-
  The contents of the core's buffers at each boundary of the kernel program's @main: at launch; after the stretch of
  host operations (the three weight matrices cast to bf16, the five vectors reshaped to rows); after region 0, whose
  two results hold what its pipeline's write-backs leave; after region 1 likewise. No item writes an argument array,
  and each later boundary's contents read back through the earlier ones.
-/
import proofs.«140406_j13340168421984_1_alg».proof.Proof.KernelIdeal.Data0
import proofs.«140406_j13340168421984_1_alg».proof.Proof.KernelIdeal.Data1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The buffers' contents at each boundary -/

/-- At launch. -/
abbrev W0 : Dev nD → Valuation τ sig (Elt F) := fun c b => m (c, b)
/-- After the host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0 (region 1's entry): its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: its two results at what the pipeline leaves, every other buffer as before (its ten operands are
    only read). -/
def W3 (c : Dev nD) : Valuation τ sig (Elt F) :=
  Function.update (Function.update (W2 m c) main_v9_0 ((dat1 (V2 m) c).arrAt 10 cfg1.N : Buf (Elt F) ((c : Thread nD τ).loc main_v9_0)))
    main_v9_1 ((dat1 (V2 m) c).arrAt 11 cfg1.N : Buf (Elt F) ((c : Thread nD τ).loc main_v9_1))
abbrev V3 : (c : Dev nD) → (b : Ref sig .tc) → Buf (Elt F) ((c : Thread nD τ).loc b) := fun c b => W3 m c b
theorem W3_of (c : Dev nD) (r : Ref sig .tc) (h : r ∉ ([main_v9_0, main_v9_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v9_0), Function.update_of_ne (StableHlo.devRef_ne_of_ne (List.ne_of_not_mem_cons (List.not_mem_of_not_mem_cons h)) : (Proc.devRef .tc r : DevRef τ sig) ≠ Proc.devRef .tc main_v9_1)]
theorem W3_act (c : Dev nD) : W3 m c main_v9_0 = (dat1 (V2 m) c).arrAt 10 cfg1.N := by
  unfold W3
  rw [Function.update_of_ne (StableHlo.devRef_ne_of_ne (by decide) : (Proc.devRef .tc main_v9_0 : DevRef τ sig) ≠ Proc.devRef .tc main_v9_1), Function.update_self]
theorem W3_pot (c : Dev nD) : W3 m c main_v9_1 = (dat1 (V2 m) c).arrAt 11 cfg1.N := by
  unfold W3
  rw [Function.update_self]
/-- An operand of region 1 is left as found. -/
theorem arrAt1_in (c : Dev nD) (w : Fin cfg1.W) (hw : (cfg1.win w).isOut = false) :
    (dat1 (V2 m) c).arrAt w cfg1.N = V2 m c (Pipeline.arrRef spec1 w) :=
  ((dat1 (V2 m) c).arrAt_in w hw _).trans (A_eq1 (V2 m) c w)
theorem hF1 (c : Dev nD) : ∀ w : Fin cfg1.W, (dat1 (V2 m) c).arrAt w cfg1.N = V3 m c (Pipeline.arrRef spec1 w)
  | ⟨0, _⟩ => (arrAt1_in m c 0 rfl).trans (W3_of m c main_arg0 (by decide)).symm
  | ⟨1, _⟩ => (arrAt1_in m c 1 rfl).trans (W3_of m c main_v8_0 (by decide)).symm
  | ⟨2, _⟩ => (arrAt1_in m c 2 rfl).trans (W3_of m c main_arg1 (by decide)).symm
  | ⟨3, _⟩ => (arrAt1_in m c 3 rfl).trans (W3_of m c main_arg1 (by decide)).symm
  | ⟨4, _⟩ => (arrAt1_in m c 4 rfl).trans (W3_of m c main_v8_1 (by decide)).symm
  | ⟨5, _⟩ => (arrAt1_in m c 5 rfl).trans (W3_of m c main_arg2 (by decide)).symm
  | ⟨6, _⟩ => (arrAt1_in m c 6 rfl).trans (W3_of m c main_v2 (by decide)).symm
  | ⟨7, _⟩ => (arrAt1_in m c 7 rfl).trans (W3_of m c main_v5 (by decide)).symm
  | ⟨8, _⟩ => (arrAt1_in m c 8 rfl).trans (W3_of m c main_v6 (by decide)).symm
  | ⟨9, _⟩ => (arrAt1_in m c 9 rfl).trans (W3_of m c main_v7 (by decide)).symm
  | ⟨10, _⟩ => (W3_act m c).symm
  | ⟨11, _⟩ => (W3_pot m c).symm
theorem hrest1 (c : Dev nD) : ∀ b, b ∉ Finset.univ.image (Pipeline.arrRef spec1) → V3 m c b = V2 m c b :=
  fun b hb => W3_of m c b (by
    intro hmem
    rcases List.mem_cons.mp hmem with e | hmem
    · exact hb (Finset.mem_image.mpr ⟨10, Finset.mem_univ _, e.symm⟩)
    · rcases List.mem_cons.mp hmem with e | hmem
      · exact hb (Finset.mem_image.mpr ⟨11, Finset.mem_univ _, e.symm⟩)
      · exact absurd hmem List.not_mem_nil)

/-! ## No item writes an argument -/

theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg0 (c : Dev nD) : W2 m c (Proc.devRef .tc main_arg0) = m ((c : Thread nD τ).loc main_arg0) :=
  ((W2_arr m c 0).trans (((dat0 (V1 m) c).arrAt_in 0 rfl _).trans (A_eq0 (V1 m) c 0))).trans (W1_main_arg0 m c)
theorem W3_main_arg0 (c : Dev nD) : W3 m c (Proc.devRef .tc main_arg0) = m ((c : Thread nD τ).loc main_arg0) :=
  (W3_of m c main_arg0 (by decide)).trans (W2_main_arg0 m c)
theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg1 (c : Dev nD) : W2 m c (Proc.devRef .tc main_arg1) = m ((c : Thread nD τ).loc main_arg1) :=
  ((W2_arr m c 1).trans (((dat0 (V1 m) c).arrAt_in 1 rfl _).trans (A_eq0 (V1 m) c 1))).trans (W1_main_arg1 m c)
theorem W3_main_arg1 (c : Dev nD) : W3 m c (Proc.devRef .tc main_arg1) = m ((c : Thread nD τ).loc main_arg1) :=
  (W3_of m c main_arg1 (by decide)).trans (W2_main_arg1 m c)
theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg2 (c : Dev nD) : W2 m c (Proc.devRef .tc main_arg2) = m ((c : Thread nD τ).loc main_arg2) :=
  (W2_of_ne m c main_arg2 (by decide)).trans (W1_main_arg2 m c)
theorem W3_main_arg2 (c : Dev nD) : W3 m c (Proc.devRef .tc main_arg2) = m ((c : Thread nD τ).loc main_arg2) :=
  (W3_of m c main_arg2 (by decide)).trans (W2_main_arg2 m c)
theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg3 (c : Dev nD) : W2 m c (Proc.devRef .tc main_arg3) = m ((c : Thread nD τ).loc main_arg3) :=
  (W2_of_ne m c main_arg3 (by decide)).trans (W1_main_arg3 m c)
theorem W3_main_arg3 (c : Dev nD) : W3 m c (Proc.devRef .tc main_arg3) = m ((c : Thread nD τ).loc main_arg3) :=
  (W3_of m c main_arg3 (by decide)).trans (W2_main_arg3 m c)
theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg4 (c : Dev nD) : W2 m c (Proc.devRef .tc main_arg4) = m ((c : Thread nD τ).loc main_arg4) :=
  (W2_of_ne m c main_arg4 (by decide)).trans (W1_main_arg4 m c)
theorem W3_main_arg4 (c : Dev nD) : W3 m c (Proc.devRef .tc main_arg4) = m ((c : Thread nD τ).loc main_arg4) :=
  (W3_of m c main_arg4 (by decide)).trans (W2_main_arg4 m c)
theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg5 (c : Dev nD) : W2 m c (Proc.devRef .tc main_arg5) = m ((c : Thread nD τ).loc main_arg5) :=
  (W2_of_ne m c main_arg5 (by decide)).trans (W1_main_arg5 m c)
theorem W3_main_arg5 (c : Dev nD) : W3 m c (Proc.devRef .tc main_arg5) = m ((c : Thread nD τ).loc main_arg5) :=
  (W3_of m c main_arg5 (by decide)).trans (W2_main_arg5 m c)
theorem W1_main_arg6 (c : Dev nD) : W1 m c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg6 (c : Dev nD) : W2 m c (Proc.devRef .tc main_arg6) = m ((c : Thread nD τ).loc main_arg6) :=
  (W2_of_ne m c main_arg6 (by decide)).trans (W1_main_arg6 m c)
theorem W3_main_arg6 (c : Dev nD) : W3 m c (Proc.devRef .tc main_arg6) = m ((c : Thread nD τ).loc main_arg6) :=
  (W3_of m c main_arg6 (by decide)).trans (W2_main_arg6 m c)
theorem W1_main_arg7 (c : Dev nD) : W1 m c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg7 (c : Dev nD) : W2 m c (Proc.devRef .tc main_arg7) = m ((c : Thread nD τ).loc main_arg7) :=
  (W2_of_ne m c main_arg7 (by decide)).trans (W1_main_arg7 m c)
theorem W3_main_arg7 (c : Dev nD) : W3 m c (Proc.devRef .tc main_arg7) = m ((c : Thread nD τ).loc main_arg7) :=
  (W3_of m c main_arg7 (by decide)).trans (W2_main_arg7 m c)
theorem W1_main_arg8 (c : Dev nD) : W1 m c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg8 (c : Dev nD) : W2 m c (Proc.devRef .tc main_arg8) = m ((c : Thread nD τ).loc main_arg8) :=
  (W2_of_ne m c main_arg8 (by decide)).trans (W1_main_arg8 m c)
theorem W3_main_arg8 (c : Dev nD) : W3 m c (Proc.devRef .tc main_arg8) = m ((c : Thread nD τ).loc main_arg8) :=
  (W3_of m c main_arg8 (by decide)).trans (W2_main_arg8 m c)
theorem W1_main_arg9 (c : Dev nD) : W1 m c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg9 (c : Dev nD) : W2 m c (Proc.devRef .tc main_arg9) = m ((c : Thread nD τ).loc main_arg9) :=
  (W2_of_ne m c main_arg9 (by decide)).trans (W1_main_arg9 m c)
theorem W3_main_arg9 (c : Dev nD) : W3 m c (Proc.devRef .tc main_arg9) = m ((c : Thread nD τ).loc main_arg9) :=
  (W3_of m c main_arg9 (by decide)).trans (W2_main_arg9 m c)
theorem W1_main_arg10 (c : Dev nD) : W1 m c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W2_main_arg10 (c : Dev nD) : W2 m c (Proc.devRef .tc main_arg10) = m ((c : Thread nD τ).loc main_arg10) :=
  (W2_of_ne m c main_arg10 (by decide)).trans (W1_main_arg10 m c)
theorem W3_main_arg10 (c : Dev nD) : W3 m c (Proc.devRef .tc main_arg10) = m ((c : Thread nD τ).loc main_arg10) :=
  (W3_of m c main_arg10 (by decide)).trans (W2_main_arg10 m c)

end Cert.KernelIdeal.Hand

end
-- ==== Proof.KernelIdeal.Body0.lean ====
/-
  Region 0 (the r and z gates), its body: one run of the kernel function on whole staging buffers — the six operands'
  holding given contents, the two results' holding anything — ends with the operands' as they were and each result's
  at its one store; and the same at every grid point of the pipeline, where each operand's staging buffer holds the
  operand's block at that point whether or not the point fetched it (a weight or bias block is fetched once per hidden
  tile and read at the four batch tiles that follow).
-/
import proofs.«140406_j13340168421984_1_alg».proof.Proof.KernelIdeal.Data0
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each operand's staging buffer holds its block at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-! ## The body on whole staging buffers -/

set_option maxHeartbeats 1000000 in
theorem sound_kernel0 (c : Dev nD) (E : Set ℕ) (i : grid0.Coords)
    (arg2 : Memref sig .tc .vmem S256x2048 .f32) (harg2 : arg2.IsWhole) (arg3 : Memref sig .tc .vmem S256x2048 .f32) (harg3 : arg3.IsWhole)
    (arg4 : Memref sig .tc .vmem S512x4096 .bf16) (harg4 : arg4.IsWhole) (arg5 : Memref sig .tc .vmem S512x4096 .bf16) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x512 .f32) (harg8 : arg8.IsWhole) (arg9 : Memref sig .tc .vmem S256x512 .f32) (harg9 : arg9.IsWhole)
    (x0 x1 : Vec F S256x2048 .f32) (x2 x3 : Vec F S512x4096 .bf16) (x4 x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outR x0 x1 x2 x4) ∗ owns (c : Thread nD τ) arg9 fullShare (outZ x0 x1 x3 x5)) -∗ K ⟨⟩))
      ⊢ wp frame (wpE (defs₀ (F := F)) Variants.none c none) E
          (cc0__rz_kernel i arg2 harg2 arg3 harg3 arg4 harg4 arg5 harg5 arg6 harg6 arg7 harg7 arg8 harg8 arg9 harg9) K := by
  simp only [cc0__rz_kernel_eq_skeleton]; unfold cc0__rz_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverOut _)
  iexists _; isplitr
  swap; · iexact H7
  ipureintro
  try dsimp only
  exact View.read_writes_eq_canon _ _ _ (coverOut _)

/-! ## The body obligation at a grid point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  Region 1 (the candidate state and the gated update), its body: one run of the kernel function on whole staging
  buffers — the ten operands' holding given contents, the two results' holding anything — ends with the operands' as
  they were and each result's at its one store; and the same at every grid point of the pipeline, where each operand's
  staging buffer holds the operand's block at that point whether or not the point fetched it.
-/
import proofs.«140406_j13340168421984_1_alg».proof.Proof.KernelIdeal.Data1
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each operand's staging buffer holds its block at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

/-! ## The body on whole staging buffers -/

set_option maxHeartbeats 2000000 in
theorem sound_kernel1 (c : Dev nD) (E : Set ℕ) (i : grid1.Coords)
    (arg2 : Memref sig .tc .vmem S256x2048 .f32) (harg2 : arg2.IsWhole)
    (arg3 : Memref sig .tc .vmem S256x2048 .f32) (harg3 : arg3.IsWhole)
    (arg4 : Memref sig .tc .vmem S256x2048 .f32) (harg4 : arg4.IsWhole)
    (arg5 : Memref sig .tc .vmem S256x512 .f32) (harg5 : arg5.IsWhole)
    (arg6 : Memref sig .tc .vmem S256x512 .f32) (harg6 : arg6.IsWhole)
    (arg7 : Memref sig .tc .vmem S256x512 .f32) (harg7 : arg7.IsWhole)
    (arg8 : Memref sig .tc .vmem S512x4096 .bf16) (harg8 : arg8.IsWhole)
    (arg9 : Memref sig .tc .vmem S1x512 .f32) (harg9 : arg9.IsWhole)
    (arg10 : Memref sig .tc .vmem S1x512 .f32) (harg10 : arg10.IsWhole)
    (arg11 : Memref sig .tc .vmem S1x512 .f32) (harg11 : arg11.IsWhole)
    (arg12 : Memref sig .tc .vmem S256x512 .f32) (harg12 : arg12.IsWhole)
    (arg13 : Memref sig .tc .vmem S256x512 .f32) (harg13 : arg13.IsWhole)
    (x0 x1 x2 : Vec F S256x2048 .f32) (x3 x4 x5 : Vec F S256x512 .f32) (x6 : Vec F S512x4096 .bf16) (x7 x8 x9 : Vec F S1x512 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ (∃ d, owns (c : Thread nD τ) arg12 fullShare d) ∗ (∃ d, owns (c : Thread nD τ) arg13 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare (outAct x0 x1 x2 x3 x4 x5 x6 x7 x8) ∗ owns (c : Thread nD τ) arg13 fullShare (outPot x0 x1 x2 x3 x4 x5 x6 x7 x8 x9)) -∗ K ⟨⟩))
      ⊢ wp frame (wpE (defs₀ (F := F)) Variants.none c none) E
          (cc1__n_kernel i arg2 harg2 arg3 harg3 arg4 harg4 arg5 harg5 arg6 harg6 arg7 harg7 arg8 harg8 arg9 harg9 arg10 harg10 arg11 harg11 arg12 harg12 arg13 harg13) K := by
  simp only [cc1__n_kernel_eq_skeleton]; unfold cc1__n_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverOut _)
  iexists _; isplitr
  swap; · iexact H11
  ipureintro
  try dsimp only
  exact View.read_writes_eq_canon _ _ _ (coverOut _)

/-! ## The body obligation at a grid point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Arrays1.lean ====
/-
  Region 1's arrays among the core's unscoped buffers.

  The region is handed twelve windows over eleven distinct buffers: h_prev's buffer stands behind two windows (its row
  band and its block), each holding half of it.  At the region's entry the core's unscoped buffers, each whole at a
  valuation, split into the region's arrays at their entry contents (h_prev's buffer halved between its two windows,
  every other array whole) and the unscoped buffers no window stages.  At its exit the arrays at their final contents
  and the untouched rest make the core's unscoped buffers again, at any valuation that holds each array's final
  contents and agrees with the entry valuation off the arrays: the two halves of h_prev's buffer hold the same
  contents there and rejoin.
-/
import proofs.«140406_j13340168421984_1_alg».proof.Proof.KernelIdeal.Data1
import Idealize.ShloMosaic.Lib.Pipeline.RegionsLoop
import Idealize.ShloMosaic.Lib.Pipeline.Kit

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eleven distinct buffers behind the region's twelve windows, one by one, each whole at a valuation. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v8_0) ↦{fullShare} W main_v8_0)
          ∗ (((c : Thread nD τ).loc main_arg1) ↦{fullShare} W main_arg1) ∗ (((c : Thread nD τ).loc main_v8_1) ↦{fullShare} W main_v8_1)
          ∗ (((c : Thread nD τ).loc main_arg2) ↦{fullShare} W main_arg2) ∗ (((c : Thread nD τ).loc main_v2) ↦{fullShare} W main_v2)
          ∗ (((c : Thread nD τ).loc main_v5) ↦{fullShare} W main_v5) ∗ (((c : Thread nD τ).loc main_v6) ↦{fullShare} W main_v6)
          ∗ (((c : Thread nD τ).loc main_v7) ↦{fullShare} W main_v7) ∗ (((c : Thread nD τ).loc main_v9_0) ↦{fullShare} W main_v9_0)
          ∗ (((c : Thread nD τ).loc main_v9_1) ↦{fullShare} W main_v9_1)) := by
  unfold Pipeline.arrBufs
  exact bigSep_eq_bigSepL_of_eq
    [main_arg0, main_v8_0, main_arg1, main_v8_1, main_arg2, main_v2, main_v5, main_v6, main_v7, main_v9_0, main_v9_1]
    (by decide) (by decide) _

/-! The share each window holds of its array: an operand window the share the proof data names (h_prev's band window
    the left half, its block window the right half, every other the full share), a result window the full share. -/
theorem share1_0 (c : Dev nD) : (dat1 V c).share 0 = fullShare := by
  unfold Dat.share
  rw [if_neg (by rw [show (cfg1.win 0).isOut = false from rfl]; exact Bool.false_ne_true)]
  dsimp only [dat1]
  rfl
theorem share1_1 (c : Dev nD) : (dat1 V c).share 1 = fullShare := by
  unfold Dat.share
  rw [if_neg (by rw [show (cfg1.win 1).isOut = false from rfl]; exact Bool.false_ne_true)]
  dsimp only [dat1]
  rfl
theorem share1_2 (c : Dev nD) : (dat1 V c).share 2 = fullShare.left := by
  unfold Dat.share
  rw [if_neg (by rw [show (cfg1.win 2).isOut = false from rfl]; exact Bool.false_ne_true)]
  dsimp only [dat1]
  rfl
theorem share1_3 (c : Dev nD) : (dat1 V c).share 3 = fullShare.right := by
  unfold Dat.share
  rw [if_neg (by rw [show (cfg1.win 3).isOut = false from rfl]; exact Bool.false_ne_true)]
  dsimp only [dat1]
  rfl
theorem share1_4 (c : Dev nD) : (dat1 V c).share 4 = fullShare := by
  unfold Dat.share
  rw [if_neg (by rw [show (cfg1.win 4).isOut = false from rfl]; exact Bool.false_ne_true)]
  dsimp only [dat1]
  rfl
theorem share1_5 (c : Dev nD) : (dat1 V c).share 5 = fullShare := by
  unfold Dat.share
  rw [if_neg (by rw [show (cfg1.win 5).isOut = false from rfl]; exact Bool.false_ne_true)]
  dsimp only [dat1]
  rfl
theorem share1_6 (c : Dev nD) : (dat1 V c).share 6 = fullShare := by
  unfold Dat.share
  rw [if_neg (by rw [show (cfg1.win 6).isOut = false from rfl]; exact Bool.false_ne_true)]
  dsimp only [dat1]
  rfl
theorem share1_7 (c : Dev nD) : (dat1 V c).share 7 = fullShare := by
  unfold Dat.share
  rw [if_neg (by rw [show (cfg1.win 7).isOut = false from rfl]; exact Bool.false_ne_true)]
  dsimp only [dat1]
  rfl
theorem share1_8 (c : Dev nD) : (dat1 V c).share 8 = fullShare := by
  unfold Dat.share
  rw [if_neg (by rw [show (cfg1.win 8).isOut = false from rfl]; exact Bool.false_ne_true)]
  dsimp only [dat1]
  rfl
theorem share1_9 (c : Dev nD) : (dat1 V c).share 9 = fullShare := by
  unfold Dat.share
  rw [if_neg (by rw [show (cfg1.win 9).isOut = false from rfl]; exact Bool.false_ne_true)]
  dsimp only [dat1]
  rfl
theorem share1_10 (c : Dev nD) : (dat1 V c).share 10 = fullShare := by
  unfold Dat.share
  rw [if_pos (show (cfg1.win 10).isOut = true from rfl)]
theorem share1_11 (c : Dev nD) : (dat1 V c).share 11 = fullShare := by
  unfold Dat.share
  rw [if_pos (show (cfg1.win 11).isOut = true from rfl)]

/-- One window's array, a whole buffer, as the points-to of its buffer at the share the window holds. -/
theorem arr1_at (c : Dev nD) (w : Fin cfg1.W) (q : PosShare TreeShare) (hq : (dat1 V c).share w = q)
    (f : Buf (Elt F) ((cfg1.win w).arr.view.loc (c : Thread nD τ))) :
    ((cfg1.win w).arr.view.loc (c : Thread nD τ) ↦[(cfg1.win w).arr.view.set]{(dat1 V c).share w} f : sProp 𝕄)
      = ((c : Thread nD τ).loc (Pipeline.arrRef spec1 w) ↦{q} f) := by
  rw [hq, (Gen.arr_whole1 w).set_eq_univ]

/-- The region's arrays window by window: every window's array is a whole buffer; h_prev's buffer is held at the left
    half by its band window and at the right half by its block window, every other array at the full share. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_arg0) ↦{fullShare} Fn 0) ∗ (((c : Thread nD τ).loc main_v8_0) ↦{fullShare} Fn 1)
          ∗ (((c : Thread nD τ).loc main_arg1) ↦{fullShare.left} Fn 2) ∗ (((c : Thread nD τ).loc main_arg1) ↦{fullShare.right} Fn 3)
          ∗ (((c : Thread nD τ).loc main_v8_1) ↦{fullShare} Fn 4) ∗ (((c : Thread nD τ).loc main_arg2) ↦{fullShare} Fn 5)
          ∗ (((c : Thread nD τ).loc main_v2) ↦{fullShare} Fn 6) ∗ (((c : Thread nD τ).loc main_v5) ↦{fullShare} Fn 7)
          ∗ (((c : Thread nD τ).loc main_v6) ↦{fullShare} Fn 8) ∗ (((c : Thread nD τ).loc main_v7) ↦{fullShare} Fn 9)
          ∗ (((c : Thread nD τ).loc main_v9_0) ↦{fullShare} Fn 10) ∗ (((c : Thread nD τ).loc main_v9_1) ↦{fullShare} Fn 11)) := by
  unfold Dat.arrays
  rw [Gen.bigSep_W1]
  exact congrArg₂ BI.sep (arr1_at V c 0 _ (share1_0 V c) _) (congrArg₂ BI.sep (arr1_at V c 1 _ (share1_1 V c) _)
    (congrArg₂ BI.sep (arr1_at V c 2 _ (share1_2 V c) _) (congrArg₂ BI.sep (arr1_at V c 3 _ (share1_3 V c) _)
    (congrArg₂ BI.sep (arr1_at V c 4 _ (share1_4 V c) _) (congrArg₂ BI.sep (arr1_at V c 5 _ (share1_5 V c) _)
    (congrArg₂ BI.sep (arr1_at V c 6 _ (share1_6 V c) _) (congrArg₂ BI.sep (arr1_at V c 7 _ (share1_7 V c) _)
    (congrArg₂ BI.sep (arr1_at V c 8 _ (share1_8 V c) _) (congrArg₂ BI.sep (arr1_at V c 9 _ (share1_9 V c) _)
    (congrArg₂ BI.sep (arr1_at V c 10 _ (share1_10 V c) _) (arr1_at V c 11 _ (share1_11 V c) _)))))))))))

/-- The core's unscoped buffers at a valuation are the distinct buffers behind the region's windows and the rest. -/
theorem unscopedBufs_split1 (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ (Ix := Unit) (Name := ℕ) (U := UR sig nD τ) (Lvl := ℕ) cfgs 1 Gen.winFacts₀1.arr_unscoped c W

/-- ENTRY: the core's unscoped buffers at V split into the region's arrays at their entry contents (h_prev's buffer
    halved between its band window and its block window) and the unscoped buffers no window stages. -/
theorem arrays1_of_unscopedBufs (c : Dev nD) :
    (unscopedBufs c (V c) : sProp 𝕄) ⊢ iprop((dat1 V c).arrays ((dat1 V c).arrAt · 0) ∗ Pipeline.unscopedRest spec1 c (V c)) := by
  have hFn : ((dat1 V c).arrAt · 0) = fun w => V c (Pipeline.arrRef spec1 w) :=
    funext fun w => (show (dat1 V c).arrAt w 0 = (dat1 V c).A w from rfl).trans (A_eq1 V c w)
  rw [unscopedBufs_split1, arrBufs1_eq, hFn, arrays1_eq]
  iintro ⟨⟨H0, H1, H2, H4, H5, H6, H7, H8, H9, H10, H11⟩, Hrest⟩
  ihave H2 := (pointsTo_share (PosShare.mem_left_op_right fullShare)).1 $$ H2
  icases H2 with ⟨H2, H3⟩
  isplitr [Hrest]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hrest

/-- EXIT: the arrays at their final contents and the untouched rest make the core's unscoped buffers at any valuation V'
    that holds each array's final contents and agrees with V elsewhere: both halves of h_prev's buffer hold what V'
    holds there, and rejoin. -/
theorem unscopedBufs_of_arrays1 (c : Dev nD) (V' : (b : Ref sig .tc) → Buf (Elt F) ((c : Thread nD τ).loc b))
    (hF : ∀ w : Fin cfg1.W, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hFn : ((dat1 V c).arrAt · cfg1.N) = fun w => V' (Pipeline.arrRef spec1 w) := funext hF
  have hR : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs_split1, arrBufs1_eq, hFn, arrays1_eq, hR]
  iintro ⟨⟨H0, H1, H2, H3, H4, H5, H6, H7, H8, H9, H10, H11⟩, Hrest⟩
  ihave H2 := (pointsTo_share (PosShare.mem_left_op_right fullShare)).2 $$ [H2 H3]
  · isplitl [H2] <;> iassumption
  isplitr [Hrest]
  · isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hrest

end Cert.KernelIdeal.Hand

end
-- ==== Proof.KernelIdeal.Run.lean ====
/-
  The kernel program's run: @main is a stretch of host operations, then region 0 (the gates r and z), then region 1
  (the candidate and the gated update). Each region is entered with every unscoped buffer of the core at the boundary's
  contents and left with them at the next boundary's; region 1 holds the array its band window and its block window
  share halved between the two and gives it back whole. Every weakly fair execution ends with every buffer at the last
  boundary's contents; in particular every argument array ends as launched.
-/
import proofs.«140406_j13340168421984_1_alg».proof.Proof.KernelIdeal.Vals
import proofs.«140406_j13340168421984_1_alg».proof.Proof.KernelIdeal.Body0
import proofs.«140406_j13340168421984_1_alg».proof.Proof.KernelIdeal.Body1
import proofs.«140406_j13340168421984_1_alg».proof.Proof.KernelIdeal.Arrays1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data of both pipelines, the thread state, the regions as segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 over the thread state: entered with every unscoped buffer at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. The array
    its band window and its block window share enters halved between them and leaves rejoined. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m) c (V3 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and ends
    with every unscoped buffer of every core at `W3`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩) (run_all m ρ)

end Cert.KernelIdeal.Hand

end
-- ==== Proof.Spec.lean ====
/-
  The result of the cell as ONE function of the argument arrays, entry by entry, over the extended reals.

  For a batch row p < 1024 and a hidden unit q < 2048, with the weight matrices read as [2048, 4096] (row q, columns
  0..2047 against x and 2048..4095 against the recurrent input) and the biases, threshold and decay as rows [1, 2048]:
      lin x u W b   = ∑ κ < 2048, x (p, κ) · W (q, κ)  +  ∑ κ < 2048, u (p, κ) · W (q, 2048 + κ)  +  b (0, q)
      r = logistic (lin x h W_r b_r),   z = logistic (lin x h W_z b_z),   n = tanh (lin x (r · h) W_c b_c)
      pot' = pot + ((1 − z) · h + z · n),   g = max (pot' − thr) 0
      activated = [g > 0] · pot',   non-gated = (pot' · [g ≤ 0]) · decay
  where [·] is the comparison's truth bit read as 0 or 1.  Summing 4096 products in one go or as two halves of 2048 is
  the same number: addition of extended reals is commutative and associative (`sum_halves`).
-/
import Idealize.ShloMosaic.Lib.ValueIdx
import Idealize.ShloMosaic.PureOps.Ideal.Laws

noncomputable section

namespace Cert.Spec

open Idealize.ShloMosaic Idealize.ShloMosaic.ValueIdx

abbrev SAct : Shape := ⟨2, ![1024, 2048]⟩
abbrev SWgt : Shape := ⟨2, ![2048, 4096]⟩
abbrev SRow : Shape := ⟨2, ![1, 2048]⟩
abbrev SVec : Shape := ⟨1, ![2048]⟩

/-- A vector of 2048 entries read as a row [1, 2048]. -/
def rowOf (b : SVec.Idx → EReal) : SRow.Idx → EReal := fun i => b (ix1 ⟨(i 1).val, (i 1).isLt⟩)

theorem rowOf_ix2 (b : SVec.Idx → EReal) (q : Fin 2048) : rowOf b (ix2 0 q) = b (ix1 q) := rfl

/-- The float words 1.0 and 0.0 at the ideal values, never evaluated. -/
abbrev one : EReal := Ideal.ofBits .f32 0x3F800000#32
abbrev zero : EReal := Ideal.ofBits .f32 0x00000000#32

/-- Column κ of the half of a weight row that meets x, and of the half that meets the recurrent input. -/
def lo (κ : Fin 2048) : Fin 4096 := ⟨κ.val, by omega⟩
def hi (κ : Fin 2048) : Fin 4096 := ⟨2048 + κ.val, by omega⟩

/-- A truth bit read as the number 0 or 1. -/
def ind (b : BitVec 1) : EReal := ((b.toNat : ℝ) : EReal)

/-- A linear layer's entry (p, q) on the concatenated input (x, u). -/
def lin (x u : SAct.Idx → EReal) (W : SWgt.Idx → EReal) (b : SRow.Idx → EReal) (p : Fin 1024) (q : Fin 2048) : EReal :=
  (∑ κ : Fin 2048, x (ix2 p κ) * W (ix2 q (lo κ))) + (∑ κ : Fin 2048, u (ix2 p κ) * W (ix2 q (hi κ))) + b (ix2 0 q)

/-- A gate: the logistic function of a linear layer on (x, h). -/
def gate (x h : SAct.Idx → EReal) (W : SWgt.Idx → EReal) (b : SRow.Idx → EReal) (p : Fin 1024) (q : Fin 2048) : EReal :=
  FloatOps.logistic (F := Ideal) (φ := .f32) (lin x h W b p q)

/-- A curried entry function as an array. -/
def arr (f : Fin 1024 → Fin 2048 → EReal) : SAct.Idx → EReal := fun i => f (i 0) (i 1)

theorem arr_ix2 (f : Fin 1024 → Fin 2048 → EReal) (p : Fin 1024) (q : Fin 2048) : arr f (ix2 p q) = f p q := rfl

/-- The candidate state: tanh of a linear layer on (x, r · h), r and h given as arrays. -/
def cand (x r h : SAct.Idx → EReal) (W : SWgt.Idx → EReal) (b : SRow.Idx → EReal) (p : Fin 1024) (q : Fin 2048) : EReal :=
  FloatOps.tanh (F := Ideal) (φ := .f32) (lin x (fun i => r i * h i) W b p q)

/-- The updated potential, from the arrays r, z (the gates), h, pot and the candidate's weights. -/
def potNew (x r z h pot : SAct.Idx → EReal) (W : SWgt.Idx → EReal) (b : SRow.Idx → EReal) (p : Fin 1024) (q : Fin 2048) : EReal :=
  pot (ix2 p q) + ((one - z (ix2 p q)) * h (ix2 p q) + z (ix2 p q) * cand x r h W b p q)

/-- The thresholded potential, clipped at zero. -/
def gated (x r z h pot : SAct.Idx → EReal) (W : SWgt.Idx → EReal) (b thr : SRow.Idx → EReal) (p : Fin 1024) (q : Fin 2048) : EReal :=
  max (potNew x r z h pot W b p q - thr (ix2 0 q)) zero

/-- The first result. -/
def activated (x r z h pot : SAct.Idx → EReal) (W : SWgt.Idx → EReal) (b thr : SRow.Idx → EReal) (p : Fin 1024) (q : Fin 2048) : EReal :=
  ind (FloatOps.cmpf (F := Ideal) (φ := .f32) .ogt (gated x r z h pot W b thr p q) zero) * potNew x r z h pot W b p q

/-- The second result. -/
def nonGated (x r z h pot : SAct.Idx → EReal) (W : SWgt.Idx → EReal) (b thr dec : SRow.Idx → EReal) (p : Fin 1024) (q : Fin 2048) : EReal :=
  (potNew x r z h pot W b p q * ind (FloatOps.cmpf (F := Ideal) (φ := .f32) .ole (gated x r z h pot W b thr p q) zero)) * dec (ix2 0 q)

/-- A sum over 4096 positions is the sum over the first 2048 plus the sum over the last 2048. -/
theorem sum_halves (f : Fin 4096 → EReal) : ∑ κ : Fin 4096, f κ = (∑ κ : Fin 2048, f (lo κ)) + ∑ κ : Fin 2048, f (hi κ) := by
  exact Fin.sum_univ_add (a := 2048) (b := 2048) (f := (f : Fin (2048 + 2048) → EReal))

/-- The truth bit widened to 32 bits and read as a signed integer is the bit read as a natural number. -/
theorem ind_of_widened (b : BitVec 1) : (((b.setWidth 32).toInt : ℝ) : EReal) = ind b := by
  have h : ∀ b : BitVec 1, (b.setWidth 32).toInt = (b.toNat : ℤ) := by decide
  unfold ind
  rw [h b]
  norm_cast

end Cert.Spec

end
-- ==== Proof.HostV.lean ====
/-
  What the kernel program's host stretch leaves, read at the ideal values: a weight matrix cast to bf16 is the matrix
  itself (a change of float format is the identity on extended reals), and a vector of 2048 entries reshaped to
  [1, 2048] is the vector read as a row.
-/
import proofs.«140406_j13340168421984_1_alg».proof.Proof.KernelIdeal.Vals
import proofs.«140406_j13340168421984_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostV

open Idealize.ShloMosaic Idealize.ShloMosaic.TcCoe Idealize.ShloMosaic.ValueIdx
open Idealize.SL Idealize.SL.Sem
open Cert.KernelIdeal Cert.KernelIdeal.Gen Cert.KernelIdeal.Hand

/-- A [2048] vector reshaped to [1, 2048], read at (0, q), is the vector at q. -/
theorem row_read (b : S2048.Idx → EReal) (j : S1x2048.Idx) :
    shapeCast S1x2048 b shapeCasts_S2048_S1x2048 j = Cert.Spec.rowOf b j := by
  rw [shapeCast_addUnit_apply (n := 1) (d := ![2048]) b shapeCasts_S2048_S1x2048 j]
  unfold Cert.Spec.rowOf
  refine congrArg b (funext fun a => ?_)
  match a with
  | ⟨0, _⟩ => exact Fin.ext rfl

variable (m : (ℓ : Loc nD τ sig) → Buf (Elt Ideal) ℓ)

theorem W1_main_v0 (c : Dev nD) : (W1 m c main_v0 : S2048x4096.Idx → EReal) = m ((c : Thread nD τ).loc main_arg3) := by
  show StableHlo.after hostOps0 (W0 m c) (Proc.devRef .tc main_v0) = _
  after_results
  rfl
theorem W1_main_v1 (c : Dev nD) : (W1 m c main_v1 : S2048x4096.Idx → EReal) = m ((c : Thread nD τ).loc main_arg5) := by
  show StableHlo.after hostOps0 (W0 m c) (Proc.devRef .tc main_v1) = _
  after_results
  rfl
theorem W1_main_v2 (c : Dev nD) : (W1 m c main_v2 : S2048x4096.Idx → EReal) = m ((c : Thread nD τ).loc main_arg7) := by
  show StableHlo.after hostOps0 (W0 m c) (Proc.devRef .tc main_v2) = _
  after_results
  rfl

theorem W1_main_v3 (c : Dev nD) : (W1 m c main_v3 : S1x2048.Idx → EReal) = Cert.Spec.rowOf (m ((c : Thread nD τ).loc main_arg4)) := by
  show StableHlo.after hostOps0 (W0 m c) (Proc.devRef .tc main_v3) = _
  after_results
  funext j
  exact row_read _ j
theorem W1_main_v4 (c : Dev nD) : (W1 m c main_v4 : S1x2048.Idx → EReal) = Cert.Spec.rowOf (m ((c : Thread nD τ).loc main_arg6)) := by
  show StableHlo.after hostOps0 (W0 m c) (Proc.devRef .tc main_v4) = _
  after_results
  funext j
  exact row_read _ j
theorem W1_main_v5 (c : Dev nD) : (W1 m c main_v5 : S1x2048.Idx → EReal) = Cert.Spec.rowOf (m ((c : Thread nD τ).loc main_arg8)) := by
  show StableHlo.after hostOps0 (W0 m c) (Proc.devRef .tc main_v5) = _
  after_results
  funext j
  exact row_read _ j
theorem W1_main_v6 (c : Dev nD) : (W1 m c main_v6 : S1x2048.Idx → EReal) = Cert.Spec.rowOf (m ((c : Thread nD τ).loc main_arg9)) := by
  show StableHlo.after hostOps0 (W0 m c) (Proc.devRef .tc main_v6) = _
  after_results
  funext j
  exact row_read _ j
theorem W1_main_v7 (c : Dev nD) : (W1 m c main_v7 : S1x2048.Idx → EReal) = Cert.Spec.rowOf (m ((c : Thread nD τ).loc main_arg10)) := by
  show StableHlo.after hostOps0 (W0 m c) (Proc.devRef .tc main_v7) = _
  after_results
  funext j
  exact row_read _ j

end Cert.KernelIdeal.HostV

end
-- ==== Proof.LibDotNT.lean ====
/-
  A matrix product against a transposed right operand, [a, k] · [b, k]ᵀ → [a, b]: no batch axis, one contracted axis of
  extent k which is axis 1 of BOTH operands, the rows from the left operand, the columns from the right operand's rows.

  The dimension numbers place the coordinates: the left operand is read at (row of the result, contraction position),
  the right at (column of the result, contraction position). So at the ideal values, where a product into a zero
  accumulator is the exact sum over the contraction index, the entry (p, q) is  ∑ κ < k, l (p, κ) · r (q, κ).
-/
import Idealize.ShloMosaic.Lib.ValueIdx
import Idealize.ShloMosaic.PureOps.Ideal.Laws

namespace Cert.DotNT

open Idealize.ShloMosaic Idealize.ShloMosaic.ValueIdx

variable {a k b : ℕ} (d : DotDims ⟨2, ![a, k]⟩ ⟨2, ![b, k]⟩ ⟨2, ![a, b]⟩)

/-- The dimension numbers of a product with the right operand transposed. -/
structure NT : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_row (h : NT d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column. -/
theorem rhs_row (h : NT d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : NT d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhs_row h _ _
    | ⟨1, _⟩ => exact (d.rhsIdx_val_of_single h.rhsContr _ _).trans hk)
  rw [el, er]

/-- The product into a zero accumulator, at an entry. -/
theorem matmul_zero_apply {φ₁ φ₂ : FTy} (h : NT d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

end Cert.DotNT
-- ==== Proof.Val0.lean ====
/-
  Region 0 (the r and z gates), its values: after the region's sixteen grid points each of the two result arrays is the
  specification's gate function of the arrays the region finds, entry by entry.

  One run of the body leaves in the (i, j) block of a result, at row p < 256 and column q < 512,
      logistic ((∑ κ < 2048, x (p, κ) · W (q, κ)) + (∑ κ < 2048, h (p, κ) · W (q, 2048 + κ)) + b (0, q))
  over the blocks of x, h (rows of batch tile i), of W (rows of hidden tile j) and of b (columns of hidden tile j): the
  narrowing to bf16 is the identity on extended reals, the two products into a zero accumulator are the exact sums over
  the contracted axis, the bias row is broadcast down the rows. An entry of a block sits in its array at block index
  times block size plus its coordinate, so the block written at point t is block t of the gate function of the whole
  arrays; the sixteen blocks tile the [1024, 2048] result, so the array ends holding the gate function everywhere.
-/
import proofs.«140406_j13340168421984_1_alg».proof.Proof.KernelIdeal.Data0
import proofs.«140406_j13340168421984_1_alg».proof.Proof.Spec
import proofs.«140406_j13340168421984_1_alg».proof.Proof.LibDotNT
import Idealize.ShloMosaic.Lib.Pipeline.Value
import Idealize.ShloMosaic.Lib.ValueLayout
import Idealize.ShloMosaic.Lib.ValueIdx

set_option maxRecDepth 16384

noncomputable section

namespace Cert.KernelIdeal.Val0

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

/-! ## What one run of the body stores, entry by entry -/

/-- The zero offsets of a whole-block access, as the constant function. -/
theorem zeros2 : (![0, 0] : Fin 2 → Nat) = fun _ => 0 := funext fun a => by fin_cases a <;> rfl

/-- The dimension numbers of the body's products: the right operand transposed. -/
theorem dotNT : Cert.DotNT.NT dot_S256x2048_S512x2048_S256x512_1_1_0_0_n_n := ⟨rfl, rfl, rfl, rfl, rfl, rfl⟩

/-- A load of the first 2048 columns of a weight block reads the block at the same row and column. -/
theorem ld_lo (w : Vec Ideal S512x4096 .bf16) (q : Fin 512) (κ : Fin 2048) :
    View.ld w rWlo (ix2 q κ) = w (ix2 q (Cert.Spec.lo κ)) := by
  show w _ = w _
  refine congrArg w (funext fun a => Fin.ext ?_)
  match a with
  | ⟨0, _⟩ => show 0 + 1 * q.val = q.val; omega
  | ⟨1, _⟩ => show 0 + 1 * κ.val = κ.val; omega

/-- A load of the last 2048 columns of a weight block reads the block 2048 columns further on. -/
theorem ld_hi (w : Vec Ideal S512x4096 .bf16) (q : Fin 512) (κ : Fin 2048) :
    View.ld w rWhi (ix2 q κ) = w (ix2 q (Cert.Spec.hi κ)) := by
  show w _ = w _
  refine congrArg w (funext fun a => Fin.ext ?_)
  match a with
  | ⟨0, _⟩ => show 0 + 1 * q.val = q.val; omega
  | ⟨1, _⟩ => show 2048 + 1 * κ.val = 2048 + κ.val; omega

/-- The r block after the body at row p, column q. -/
theorem outR_apply (x h : Vec Ideal S256x2048 .f32) (w : Vec Ideal S512x4096 .bf16) (b : Vec Ideal S1x512 .f32)
    (p : Fin 256) (q : Fin 512) :
    outR x h w b (ix2 p q)
      = FloatOps.logistic (F := Ideal) (φ := .f32)
          ((∑ κ : Fin 2048, x (ix2 p κ) * w (ix2 q (Cert.Spec.lo κ))) + (∑ κ : Fin 2048, h (ix2 p κ) * w (ix2 q (Cert.Spec.hi κ)))
            + b (ix2 0 q)) := by
  unfold outR
  rw [View.canon_unit_zero zeros2]
  simp only [View.ld_unit_zero (S := S256x2048) zeros2, View.ld_unit_zero (S := S1x512) zeros2]
  unfold k0_pay3 k0_pay1 k0_pay2
  dsimp only
  simp only [shapeCast_self]
  refine congrArg (FloatOps.logistic (F := Ideal) (φ := .f32)) ?_
  rw [addf_apply, addf_apply, Cert.DotNT.matmul_zero_apply dotNT rfl rfl, Cert.DotNT.matmul_zero_apply dotNT rfl rfl,
    broadcastTo_1b_ab_apply]
  simp only [truncf_apply]
  refine congrArg₂ (· + ·) (congrArg₂ (· + ·) (Finset.sum_congr rfl fun κ _ => ?_) (Finset.sum_congr rfl fun κ _ => ?_)) rfl
  · exact congrArg (x (ix2 p κ) * ·) (ld_lo w q κ)
  · exact congrArg (h (ix2 p κ) * ·) (ld_hi w q κ)

/-- The z block is the same function of its operand blocks as the r block. -/
theorem outZ_eq_outR (x h : Vec Ideal S256x2048 .f32) (w : Vec Ideal S512x4096 .bf16) (b : Vec Ideal S1x512 .f32) :
    outZ x h w b = outR x h w b := rfl

/-- A block of a gate. If the operand blocks are batch tile `i0` of the two activation arrays and hidden tile `j0` of
    the weight matrix and of the bias row, the entry the body stores at `y` is the gate function of the whole arrays at
    the entry `k` of tile (i0, j0) that `y` names. -/
theorem outR_gate (X H : Cert.Spec.SAct.Idx → EReal) (W : Cert.Spec.SWgt.Idx → EReal) (B : Cert.Spec.SRow.Idx → EReal)
    (x h : Vec Ideal S256x2048 .f32) (w : Vec Ideal S512x4096 .bf16) (b : Vec Ideal S1x512 .f32) (i0 j0 : ℕ)
    (hx : ∀ (y : S256x2048.Idx) (k : Cert.Spec.SAct.Idx), (k 0).val = i0 * 256 + (y 0).val → (k 1).val = (y 1).val → x y = X k)
    (hh : ∀ (y : S256x2048.Idx) (k : Cert.Spec.SAct.Idx), (k 0).val = i0 * 256 + (y 0).val → (k 1).val = (y 1).val → h y = H k)
    (hw : ∀ (y : S512x4096.Idx) (k : Cert.Spec.SWgt.Idx), (k 0).val = j0 * 512 + (y 0).val → (k 1).val = (y 1).val → w y = W k)
    (hb : ∀ (y : S1x512.Idx) (k : Cert.Spec.SRow.Idx), (k 1).val = j0 * 512 + (y 1).val → b y = B k)
    (y : S256x512.Idx) (k : Cert.Spec.SAct.Idx) (hk0 : (k 0).val = i0 * 256 + (y 0).val) (hk1 : (k 1).val = j0 * 512 + (y 1).val) :
    outR x h w b y = Cert.Spec.arr (Cert.Spec.gate X H W B) k := by
  obtain ⟨p, q, rfl⟩ : ∃ (p : Fin 256) (q : Fin 512), y = ix2 p q := ⟨y 0, y 1, eq_ix2 y⟩
  obtain ⟨P, Q, rfl⟩ : ∃ (P : Fin 1024) (Q : Fin 2048), k = ix2 P Q := ⟨k 0, k 1, eq_ix2 k⟩
  have hP : P.val = i0 * 256 + p.val := hk0
  have hQ : Q.val = j0 * 512 + q.val := hk1
  rw [outR_apply, Cert.Spec.arr_ix2]
  unfold Cert.Spec.gate Cert.Spec.lin
  refine congrArg (FloatOps.logistic (F := Ideal) (φ := .f32)) ?_
  refine congrArg₂ (· + ·) (congrArg₂ (· + ·) (Finset.sum_congr rfl fun κ _ => ?_) (Finset.sum_congr rfl fun κ _ => ?_)) ?_
  · rw [hx (ix2 p κ) (ix2 P κ) hP rfl, hw (ix2 q (Cert.Spec.lo κ)) (ix2 Q (Cert.Spec.lo κ)) hQ rfl]
  · rw [hh (ix2 p κ) (ix2 P κ) hP rfl, hw (ix2 q (Cert.Spec.hi κ)) (ix2 Q (Cert.Spec.hi κ)) hQ rfl]
  · exact hb (ix2 0 q) (ix2 0 Q) hQ

/-! ## From the blocks to the arrays -/

/-- The blocks' index maps, decided once over the sixteen grid points: the activations' blocks follow the result's row
    tile, the weights' and biases' blocks its column tile, and both tiles are below 4. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (1 : Fin 2) ∧ win0_2.index t (1 : Fin 2) = 0
    ∧ win0_3.index t (0 : Fin 2) = win0_6.index t (1 : Fin 2) ∧ win0_3.index t (1 : Fin 2) = 0
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) < 4 ∧ win0_6.index t (1 : Fin 2) < 4 :=
  (by decide +kernel : ∀ t : Fin grid0.N, _)

/-- Every tile of the result is some point's. -/
theorem idx_onto : ∀ (a b : Fin 4), ∃ t : Fin cfg0.N, win0_6.index t = ![a.val, b.val] ∧ win0_7.index t = ![a.val, b.val] :=
  (by decide +kernel : ∀ (a b : Fin 4), ∃ t : Fin grid0.N, win0_6.index t = ![a.val, b.val] ∧ win0_7.index t = ![a.val, b.val])

variable (V : (c : Dev nD) → (b : Ref sig .tc) → Buf (Elt Ideal) ((c : Thread nD τ).loc b))

/-- An entry of the x block at a point sits in x at block index times block size plus its coordinate. -/
theorem iblk_x (c : Dev nD) (t : Fin cfg0.N) (y : S256x2048.Idx) (k : S1024x2048.Idx)
    (hk0 : (k 0).val = win0_0.index t (0 : Fin 2) * 256 + (y 0).val) (hk1 : (k 1).val = win0_0.index t (1 : Fin 2) * 2048 + (y 1).val) :
    (iblk0 V c 0 t : Vec Ideal S256x2048 .f32) y = (V c main_arg0 : S1024x2048.Idx → EReal) k := by
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * (y 0).val = (k 0).val; omega
  | ⟨1, _⟩ => show win0_0.index t (1 : Fin 2) * 2048 + 1 * (y 1).val = (k 1).val; omega

/-- The same for the h block. -/
theorem iblk_h (c : Dev nD) (t : Fin cfg0.N) (y : S256x2048.Idx) (k : S1024x2048.Idx)
    (hk0 : (k 0).val = win0_1.index t (0 : Fin 2) * 256 + (y 0).val) (hk1 : (k 1).val = win0_1.index t (1 : Fin 2) * 2048 + (y 1).val) :
    (iblk0 V c 1 t : Vec Ideal S256x2048 .f32) y = (V c main_arg1 : S1024x2048.Idx → EReal) k := by
  unfold iblk0
  rw [View.read_apply]
  show V c main_arg1 _ = V c main_arg1 _
  refine congrArg (V c main_arg1) (funext fun a => Fin.ext ?_)
  match a with
  | ⟨0, _⟩ => show win0_1.index t (0 : Fin 2) * 256 + 1 * (y 0).val = (k 0).val; omega
  | ⟨1, _⟩ => show win0_1.index t (1 : Fin 2) * 2048 + 1 * (y 1).val = (k 1).val; omega

/-- The same for the block of the r gate's weights. -/
theorem iblk_wr (c : Dev nD) (t : Fin cfg0.N) (y : S512x4096.Idx) (k : S2048x4096.Idx)
    (hk0 : (k 0).val = win0_2.index t (0 : Fin 2) * 512 + (y 0).val) (hk1 : (k 1).val = win0_2.index t (1 : Fin 2) * 4096 + (y 1).val) :
    (iblk0 V c 2 t : Vec Ideal S512x4096 .bf16) y = (V c main_v0 : S2048x4096.Idx → EReal) k := by
  unfold iblk0
  rw [View.read_apply]
  show V c main_v0 _ = V c main_v0 _
  refine congrArg (V c main_v0) (funext fun a => Fin.ext ?_)
  match a with
  | ⟨0, _⟩ => show win0_2.index t (0 : Fin 2) * 512 + 1 * (y 0).val = (k 0).val; omega
  | ⟨1, _⟩ => show win0_2.index t (1 : Fin 2) * 4096 + 1 * (y 1).val = (k 1).val; omega

/-- The same for the block of the z gate's weights. -/
theorem iblk_wz (c : Dev nD) (t : Fin cfg0.N) (y : S512x4096.Idx) (k : S2048x4096.Idx)
    (hk0 : (k 0).val = win0_3.index t (0 : Fin 2) * 512 + (y 0).val) (hk1 : (k 1).val = win0_3.index t (1 : Fin 2) * 4096 + (y 1).val) :
    (iblk0 V c 3 t : Vec Ideal S512x4096 .bf16) y = (V c main_v1 : S2048x4096.Idx → EReal) k := by
  unfold iblk0
  rw [View.read_apply]
  show V c main_v1 _ = V c main_v1 _
  refine congrArg (V c main_v1) (funext fun a => Fin.ext ?_)
  match a with
  | ⟨0, _⟩ => show win0_3.index t (0 : Fin 2) * 512 + 1 * (y 0).val = (k 0).val; omega
  | ⟨1, _⟩ => show win0_3.index t (1 : Fin 2) * 4096 + 1 * (y 1).val = (k 1).val; omega

/-- The same for the block of the r gate's bias row. -/
theorem iblk_br (c : Dev nD) (t : Fin cfg0.N) (y : S1x512.Idx) (k : S1x2048.Idx)
    (hk0 : (k 0).val = win0_4.index t (0 : Fin 2) * 1 + (y 0).val) (hk1 : (k 1).val = win0_4.index t (1 : Fin 2) * 512 + (y 1).val) :
    (iblk0 V c 4 t : Vec Ideal S1x512 .f32) y = (V c main_v3 : S1x2048.Idx → EReal) k := by
  unfold iblk0
  rw [View.read_apply]
  show V c main_v3 _ = V c main_v3 _
  refine congrArg (V c main_v3) (funext fun a => Fin.ext ?_)
  match a with
  | ⟨0, _⟩ => show win0_4.index t (0 : Fin 2) * 1 + 1 * (y 0).val = (k 0).val; omega
  | ⟨1, _⟩ => show win0_4.index t (1 : Fin 2) * 512 + 1 * (y 1).val = (k 1).val; omega

/-- The same for the block of the z gate's bias row. -/
theorem iblk_bz (c : Dev nD) (t : Fin cfg0.N) (y : S1x512.Idx) (k : S1x2048.Idx)
    (hk0 : (k 0).val = win0_5.index t (0 : Fin 2) * 1 + (y 0).val) (hk1 : (k 1).val = win0_5.index t (1 : Fin 2) * 512 + (y 1).val) :
    (iblk0 V c 5 t : Vec Ideal S1x512 .f32) y = (V c main_v4 : S1x2048.Idx → EReal) k := by
  unfold iblk0
  rw [View.read_apply]
  show V c main_v4 _ = V c main_v4 _
  refine congrArg (V c main_v4) (funext fun a => Fin.ext ?_)
  match a with
  | ⟨0, _⟩ => show win0_5.index t (0 : Fin 2) * 1 + 1 * (y 0).val = (k 0).val; omega
  | ⟨1, _⟩ => show win0_5.index t (1 : Fin 2) * 512 + 1 * (y 1).val = (k 1).val; omega

/-- What a point writes back to the r result is its block of the r gate of the arrays as the region finds them. -/
theorem flushedR (c : Dev nD) (t : Fin cfg0.N) :
    (dat0 (F := Ideal) V c).flushed 6 t
      = ((cfg0.win 6).blk t).view.read (Elt Ideal)
          (Cert.Spec.arr (Cert.Spec.gate (V c main_arg0) (V c main_arg1) (V c main_v0) (V c main_v3))) := by
  show (cfg0.win 6).cut (grid0.coords t) ((dat0 V c).after 6 t) = _
  rw [after0_6]
  obtain ⟨e00, e01, e10, e11, e20, e21, e30, e31, e40, e41, e50, e51, e70, e71, b0, b1⟩ := idx_facts t
  funext y
  rw [View.read_apply]
  refine outR_gate (V c main_arg0) (V c main_arg1) (V c main_v0) (V c main_v3) _ _ _ _
    (win0_6.index t (0 : Fin 2)) (win0_6.index t (1 : Fin 2))
    (fun y k h0 h1 => iblk_x V c t y k (by omega) (by omega))
    (fun y k h0 h1 => iblk_h V c t y k (by omega) (by omega))
    (fun y k h0 h1 => iblk_wr V c t y k (by omega) (by omega))
    (fun y k h1 => iblk_br V c t y k (by have hk : (k 0).val < 1 := (k 0).isLt; have hy : (y 0).val < 1 := (y 0).isLt; omega) (by omega))
    y _ ?_ ?_
  · show win0_6.index t (0 : Fin 2) * 256 + 1 * (y 0).val = _; omega
  · show win0_6.index t (1 : Fin 2) * 512 + 1 * (y 1).val = _; omega

/-- What a point writes back to the z result is its block of the z gate of the arrays as the region finds them. -/
theorem flushedZ (c : Dev nD) (t : Fin cfg0.N) :
    (dat0 (F := Ideal) V c).flushed 7 t
      = ((cfg0.win 7).blk t).view.read (Elt Ideal)
          (Cert.Spec.arr (Cert.Spec.gate (V c main_arg0) (V c main_arg1) (V c main_v1) (V c main_v4))) := by
  show (cfg0.win 7).cut (grid0.coords t) ((dat0 V c).after 7 t) = _
  rw [after0_7, outZ_eq_outR]
  obtain ⟨e00, e01, e10, e11, e20, e21, e30, e31, e40, e41, e50, e51, e70, e71, b0, b1⟩ := idx_facts t
  funext y
  rw [View.read_apply]
  refine outR_gate (V c main_arg0) (V c main_arg1) (V c main_v1) (V c main_v4) _ _ _ _
    (win0_7.index t (0 : Fin 2)) (win0_7.index t (1 : Fin 2))
    (fun y k h0 h1 => iblk_x V c t y k (by omega) (by omega))
    (fun y k h0 h1 => iblk_h V c t y k (by omega) (by omega))
    (fun y k h0 h1 => iblk_wz V c t y k (by omega) (by omega))
    (fun y k h1 => iblk_bz V c t y k (by have hk : (k 0).val < 1 := (k 0).isLt; have hy : (y 0).val < 1 := (y 0).isLt; omega) (by omega))
    y _ ?_ ?_
  · show win0_7.index t (0 : Fin 2) * 256 + 1 * (y 0).val = _; omega
  · show win0_7.index t (1 : Fin 2) * 512 + 1 * (y 1).val = _; omega

/-- An entry of the r result is in a point's block exactly when each coordinate is in the block's range on its axis. -/
theorem mem_blkR (t : Fin cfg0.N) (i : S1024x2048.Idx) :
    i ∈ ((cfg0.win 6).blk t).view.set
      ↔ ∀ a : Fin 2, win0_6.index t a * S256x512.size a ≤ (i a).val ∧ (i a).val < win0_6.index t a * S256x512.size a + S256x512.size a := by
  show i ∈ ((View.whole main_v8_0).slice (win0_6.rect t)).set ↔ _
  rw [View.set_slice_whole, Rect.mem_set_unit]
  exact Iff.rfl

/-- The sixteen blocks tile the r result: entry (r, s) is in the block of the point whose tile is (r / 256, s / 512). -/
theorem coverR (i : S1024x2048.Idx) :
    ∃ t : Fin cfg0.N, (cfg0.win 6).flush t = true ∧ i ∈ ((cfg0.win 6).blk t).view.set := by
  have hi0 : (i 0).val < 1024 := (i 0).isLt
  have hi1 : (i 1).val < 2048 := (i 1).isLt
  obtain ⟨t, ht6, ht7⟩ := idx_onto ⟨(i 0).val / 256, by omega⟩ ⟨(i 1).val / 512, by omega⟩
  have q0 : win0_6.index t (0 : Fin 2) = (i 0).val / 256 := congrFun ht6 0
  have q1 : win0_6.index t (1 : Fin 2) = (i 1).val / 512 := congrFun ht6 1
  refine ⟨t, flush0_6 t, ?_⟩
  rw [mem_blkR]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 512 ≤ (i 1).val ∧ (i 1).val < win0_6.index t (1 : Fin 2) * 512 + 512; omega

/-- An entry of the z result is in a point's block exactly when each coordinate is in the block's range on its axis. -/
theorem mem_blkZ (t : Fin cfg0.N) (i : S1024x2048.Idx) :
    i ∈ ((cfg0.win 7).blk t).view.set
      ↔ ∀ a : Fin 2, win0_7.index t a * S256x512.size a ≤ (i a).val ∧ (i a).val < win0_7.index t a * S256x512.size a + S256x512.size a := by
  show i ∈ ((View.whole main_v8_1).slice (win0_7.rect t)).set ↔ _
  rw [View.set_slice_whole, Rect.mem_set_unit]
  exact Iff.rfl

/-- The sixteen blocks tile the z result: entry (r, s) is in the block of the point whose tile is (r / 256, s / 512). -/
theorem coverZ (i : S1024x2048.Idx) :
    ∃ t : Fin cfg0.N, (cfg0.win 7).flush t = true ∧ i ∈ ((cfg0.win 7).blk t).view.set := by
  have hi0 : (i 0).val < 1024 := (i 0).isLt
  have hi1 : (i 1).val < 2048 := (i 1).isLt
  obtain ⟨t, ht6, ht7⟩ := idx_onto ⟨(i 0).val / 256, by omega⟩ ⟨(i 1).val / 512, by omega⟩
  have q0 : win0_7.index t (0 : Fin 2) = (i 0).val / 256 := congrFun ht7 0
  have q1 : win0_7.index t (1 : Fin 2) = (i 1).val / 512 := congrFun ht7 1
  refine ⟨t, flush0_7 t, ?_⟩
  rw [mem_blkZ]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-! ## The two result arrays after the region -/

/-- After the region the r result is the r gate of x, h, W_r and b_r as the region finds them. -/
theorem finalR (c : Dev nD) :
    (dat0 (F := Ideal) V c).arrAt 6 cfg0.N
      = Cert.Spec.arr (Cert.Spec.gate (V c main_arg0) (V c main_arg1) (V c main_v0) (V c main_v3)) :=
  (dat0 (F := Ideal) V c).arrAt_eq_of_cover 6 _ (fun t _ => flushedR V c t) coverR

/-- After the region the z result is the z gate of x, h, W_z and b_z as the region finds them. -/
theorem finalZ (c : Dev nD) :
    (dat0 (F := Ideal) V c).arrAt 7 cfg0.N
      = Cert.Spec.arr (Cert.Spec.gate (V c main_arg0) (V c main_arg1) (V c main_v1) (V c main_v4)) :=
  (dat0 (F := Ideal) V c).arrAt_eq_of_cover 7 _ (fun t _ => flushedZ V c t) coverZ

end Cert.KernelIdeal.Val0

end
-- ==== Proof.Val1.lean ====
/-
  Region 1 (the candidate state and the gated update), its value: after the region each of the two result arrays is
  the specification's function of the arrays the region finds.

  At a row p < 256 and a column q < 512 of a block, with x, r, h the batch tile's rows (256 x 2048), ht, zt, pt the
  (i, j) blocks of h_prev, z and the previous potential, w the hidden tile's rows of W_c (512 x 4096) and b, thr, dec
  the hidden tile of b_c, of the threshold and of the decay rate, the body's potential is
      pt (p, q) + ((1 - zt (p, q)) * ht (p, q) + zt (p, q) * tanh (sum_k x (p, k) * w (q, k)
                                                        + sum_k (r (p, k) * h (p, k)) * w (q, 2048 + k) + b (0, q)))
  and its two stores are  [max (pot - thr) 0 > 0] * pot  and  (pot * [max (pot - thr) 0 <= 0]) * dec.  The block of an
  operand at grid point t = (j, i) holds its array's entries at block index times block size plus the coordinate inside
  the block, so row p of block i is row 256 i + p of the array and column q of block j is column 512 j + q: the body's
  result block is the block of the specification's array.  The 16 result blocks tile the [1024, 2048] array.
-/
import proofs.«140406_j13340168421984_1_alg».proof.Proof.KernelIdeal.Data1
import proofs.«140406_j13340168421984_1_alg».proof.Proof.Spec
import proofs.«140406_j13340168421984_1_alg».proof.Proof.LibDotNT
import Idealize.ShloMosaic.Lib.Pipeline.Value
import Idealize.ShloMosaic.Lib.ValueIdx
import Idealize.ShloMosaic.Lib.ValueLayout

set_option maxRecDepth 16384

noncomputable section

namespace Cert.KernelIdeal.Val1

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

/-! ## The body's payload at an index -/

theorem hz : (![0, 0] : Fin 2 → Nat) = fun _ => 0 := funext fun a => by fin_cases a <;> rfl

/-- The columns 0..2047 of a weight block, read at (q, k), are the block at (q, k). -/
theorem ld_wlo (w : Vec Ideal S512x4096 .bf16) (q : Fin 512) (κ : Fin 2048) :
    View.ld w rWlo (ix2 q κ) = w (ix2 q (Cert.Spec.lo κ)) := by
  show w (rWlo.idx (ix2 q κ)) = _
  refine congrArg w (funext fun a => Fin.ext ?_)
  match a with
  | ⟨0, _⟩ => show 0 + 1 * q.val = q.val; omega
  | ⟨1, _⟩ => show 0 + 1 * κ.val = κ.val; omega

/-- The columns 2048..4095 of a weight block, read at (q, k), are the block at (q, 2048 + k). -/
theorem ld_whi (w : Vec Ideal S512x4096 .bf16) (q : Fin 512) (κ : Fin 2048) :
    View.ld w rWhi (ix2 q κ) = w (ix2 q (Cert.Spec.hi κ)) := by
  show w (rWhi.idx (ix2 q κ)) = _
  refine congrArg w (funext fun a => Fin.ext ?_)
  match a with
  | ⟨0, _⟩ => show 0 + 1 * q.val = q.val; omega
  | ⟨1, _⟩ => show 2048 + 1 * κ.val = 2048 + κ.val; omega

/-- The block product's dimension numbers: rows from the left operand, columns from the right operand's rows, both
    contracted along their axis 1. -/
theorem dotNT : Cert.DotNT.NT dot_S256x2048_S512x2048_S256x512_1_1_0_0_n_n := ⟨rfl, rfl, rfl, rfl, rfl, rfl⟩

/-- A block product of the body into the zero accumulator, at (p, q). -/
theorem mm_apply {φ₁ φ₂ : FTy} (l : FVec Ideal S256x2048 φ₁) (r : FVec Ideal S512x2048 φ₂) (p : Fin 256) (q : Fin 512) :
    matmul dot_S256x2048_S512x2048_S256x512_1_1_0_0_n_n none l r (constant S256x512 .f32 0x00000000#32) (ix2 p q)
      = ∑ κ : Fin 2048, l (ix2 p κ) * r (ix2 q κ) :=
  Cert.DotNT.matmul_zero_apply dotNT rfl rfl none l r p q

/-- The product against the weight block's columns 0..2047. -/
theorem mm_lo_apply (l : FVec Ideal S256x2048 .bf16) (w : Vec Ideal S512x4096 .bf16) (p : Fin 256) (q : Fin 512) :
    matmul (φ₂ := .bf16) dot_S256x2048_S512x2048_S256x512_1_1_0_0_n_n none l (View.ld w rWlo) (constant S256x512 .f32 0x00000000#32) (ix2 p q)
      = ∑ κ : Fin 2048, l (ix2 p κ) * w (ix2 q (Cert.Spec.lo κ)) :=
  (mm_apply (φ₂ := .bf16) l (View.ld w rWlo) p q).trans (Finset.sum_congr rfl fun κ _ => congrArg (l (ix2 p κ) * ·) (ld_wlo w q κ))

/-- The product against the weight block's columns 2048..4095. -/
theorem mm_hi_apply (l : FVec Ideal S256x2048 .bf16) (w : Vec Ideal S512x4096 .bf16) (p : Fin 256) (q : Fin 512) :
    matmul (φ₂ := .bf16) dot_S256x2048_S512x2048_S256x512_1_1_0_0_n_n none l (View.ld w rWhi) (constant S256x512 .f32 0x00000000#32) (ix2 p q)
      = ∑ κ : Fin 2048, l (ix2 p κ) * w (ix2 q (Cert.Spec.hi κ)) :=
  (mm_apply (φ₂ := .bf16) l (View.ld w rWhi) p q).trans (Finset.sum_congr rfl fun κ _ => congrArg (l (ix2 p κ) * ·) (ld_whi w q κ))

/-- The body's potential at (p, q) of the block. -/
theorem potNew_apply (x r h : Vec Ideal S256x2048 .f32) (ht zt pt : Vec Ideal S256x512 .f32) (w : Vec Ideal S512x4096 .bf16)
    (b : Vec Ideal S1x512 .f32) (p : Fin 256) (q : Fin 512) :
    potNew x r h ht zt pt w b (ix2 p q)
      = pt (ix2 p q) + ((Cert.Spec.one - zt (ix2 p q)) * ht (ix2 p q) + zt (ix2 p q) *
          FloatOps.tanh (F := Ideal) (φ := .f32) ((∑ κ : Fin 2048, x (ix2 p κ) * w (ix2 q (Cert.Spec.lo κ)))
            + (∑ κ : Fin 2048, (r (ix2 p κ) * h (ix2 p κ)) * w (ix2 q (Cert.Spec.hi κ))) + b (ix2 0 q))) := by
  unfold potNew
  simp only [View.ld_unit_zero (S := S256x2048) hz, View.ld_unit_zero (S := S256x512) hz, View.ld_unit_zero (S := S1x512) hz]
  unfold k1_pay4
  simp only [shapeCast_self]
  rw [addf_apply, addf_apply, mulf_apply, mulf_apply, subf_apply, broadcast_apply]
  show _ + ((_ - _) * _ + _ * FloatOps.tanh (F := Ideal) (φ := .f32) _) = _
  rw [addf_apply, addf_apply, mm_lo_apply, mm_hi_apply, broadcastTo_1b_ab_apply]
  simp only [truncf_apply, mulf_apply]
  rfl

/-- The potential minus the threshold at (p, q). -/
theorem potGap_apply (x r h : Vec Ideal S256x2048 .f32) (ht zt pt : Vec Ideal S256x512 .f32) (w : Vec Ideal S512x4096 .bf16)
    (b thr : Vec Ideal S1x512 .f32) (p : Fin 256) (q : Fin 512) :
    potGap x r h ht zt pt w b thr (ix2 p q) = potNew x r h ht zt pt w b (ix2 p q) - thr (ix2 0 q) := by
  unfold potGap potNew k1_pay5
  simp only [shapeCast_self, View.ld_unit_zero (S := S1x512) hz]
  rw [subf_apply, broadcastTo_1b_ab_apply]

/-- The first store at (p, q): the truth bit of "the clipped gap is positive" times the potential. -/
theorem outAct_apply (x r h : Vec Ideal S256x2048 .f32) (ht zt pt : Vec Ideal S256x512 .f32) (w : Vec Ideal S512x4096 .bf16)
    (b thr : Vec Ideal S1x512 .f32) (p : Fin 256) (q : Fin 512) :
    outAct x r h ht zt pt w b thr (ix2 p q)
      = Cert.Spec.ind (FloatOps.cmpf (F := Ideal) (φ := .f32) .ogt
            (max (potNew x r h ht zt pt w b (ix2 p q) - thr (ix2 0 q)) Cert.Spec.zero) Cert.Spec.zero)
          * potNew x r h ht zt pt w b (ix2 p q) := by
  unfold outAct
  rw [View.canon_unit_zero hz]
  unfold k1_pay2 k1_pay1 k1_pay6
  dsimp only
  rw [mulf_apply, sitofp_apply, extui_apply, cmpf_apply, maximumf_apply, broadcast_apply, potGap_apply]
  exact congrArg (· * potNew x r h ht zt pt w b (ix2 p q)) (Cert.Spec.ind_of_widened _)

/-- The second store at (p, q): the potential times the truth bit of "the clipped gap is not positive", times the
    decay rate. -/
theorem outPot_apply (x r h : Vec Ideal S256x2048 .f32) (ht zt pt : Vec Ideal S256x512 .f32) (w : Vec Ideal S512x4096 .bf16)
    (b thr dec : Vec Ideal S1x512 .f32) (p : Fin 256) (q : Fin 512) :
    outPot x r h ht zt pt w b thr dec (ix2 p q)
      = (potNew x r h ht zt pt w b (ix2 p q) * Cert.Spec.ind (FloatOps.cmpf (F := Ideal) (φ := .f32) .ole
            (max (potNew x r h ht zt pt w b (ix2 p q) - thr (ix2 0 q)) Cert.Spec.zero) Cert.Spec.zero))
          * dec (ix2 0 q) := by
  unfold outPot
  rw [View.canon_unit_zero hz]
  unfold k1_pay3 k1_pay1 k1_pay6
  dsimp only
  simp only [shapeCast_self, View.ld_unit_zero (S := S1x512) hz]
  rw [mulf_apply, mulf_apply, sitofp_apply, extui_apply, cmpf_apply, maximumf_apply, broadcast_apply,
    potGap_apply, broadcastTo_1b_ab_apply]
  exact congrArg (fun e => (potNew x r h ht zt pt w b (ix2 p q) * e) * dec (ix2 0 q)) (Cert.Spec.ind_of_widened _)

/-! ## A block of the body's results is the block of the specification's arrays

Over variables: the operand blocks `x … dec` read the arrays `X … Dec` at block (I, ·), (I, J), (J, ·) or (·, J), that is
at row 256 I + p and column 512 J + q. -/

section Block

variable (X R Z H Pot : Cert.Spec.SAct.Idx → EReal) (W : Cert.Spec.SWgt.Idx → EReal) (B Thr Dec : Cert.Spec.SRow.Idx → EReal)
  (x r h : Vec Ideal S256x2048 .f32) (ht zt pt : Vec Ideal S256x512 .f32) (w : Vec Ideal S512x4096 .bf16)
  (b thr dec : Vec Ideal S1x512 .f32) (I J : Nat)

/-- The block's potential is the specification's. -/
theorem potNew_block
    (hx : ∀ (p : Fin 256) (κ : Fin 2048) (P : Fin 1024), P.val = I * 256 + p.val → x (ix2 p κ) = X (ix2 P κ))
    (hr : ∀ (p : Fin 256) (κ : Fin 2048) (P : Fin 1024), P.val = I * 256 + p.val → r (ix2 p κ) = R (ix2 P κ))
    (hh : ∀ (p : Fin 256) (κ : Fin 2048) (P : Fin 1024), P.val = I * 256 + p.val → h (ix2 p κ) = H (ix2 P κ))
    (hht : ∀ (p : Fin 256) (q : Fin 512) (P : Fin 1024) (Q : Fin 2048), P.val = I * 256 + p.val → Q.val = J * 512 + q.val →
      ht (ix2 p q) = H (ix2 P Q))
    (hzt : ∀ (p : Fin 256) (q : Fin 512) (P : Fin 1024) (Q : Fin 2048), P.val = I * 256 + p.val → Q.val = J * 512 + q.val →
      zt (ix2 p q) = Z (ix2 P Q))
    (hpt : ∀ (p : Fin 256) (q : Fin 512) (P : Fin 1024) (Q : Fin 2048), P.val = I * 256 + p.val → Q.val = J * 512 + q.val →
      pt (ix2 p q) = Pot (ix2 P Q))
    (hw : ∀ (q : Fin 512) (κ : Fin 4096) (Q : Fin 2048), Q.val = J * 512 + q.val → w (ix2 q κ) = W (ix2 Q κ))
    (hb : ∀ (q : Fin 512) (Q : Fin 2048), Q.val = J * 512 + q.val → b (ix2 0 q) = B (ix2 0 Q))
    (p : Fin 256) (q : Fin 512) (P : Fin 1024) (Q : Fin 2048) (hP : P.val = I * 256 + p.val) (hQ : Q.val = J * 512 + q.val) :
    potNew x r h ht zt pt w b (ix2 p q) = Cert.Spec.potNew X R Z H Pot W B P Q := by
  rw [potNew_apply]
  unfold Cert.Spec.potNew Cert.Spec.cand Cert.Spec.lin
  rw [hpt p q P Q hP hQ, hzt p q P Q hP hQ, hht p q P Q hP hQ, hb q Q hQ,
    Finset.sum_congr rfl (fun κ _ => by rw [hx p κ P hP, hw q (Cert.Spec.lo κ) Q hQ] :
      ∀ κ ∈ (Finset.univ : Finset (Fin 2048)), x (ix2 p κ) * w (ix2 q (Cert.Spec.lo κ)) = X (ix2 P κ) * W (ix2 Q (Cert.Spec.lo κ))),
    Finset.sum_congr rfl (fun κ _ => by rw [hr p κ P hP, hh p κ P hP, hw q (Cert.Spec.hi κ) Q hQ] :
      ∀ κ ∈ (Finset.univ : Finset (Fin 2048)), r (ix2 p κ) * h (ix2 p κ) * w (ix2 q (Cert.Spec.hi κ))
        = R (ix2 P κ) * H (ix2 P κ) * W (ix2 Q (Cert.Spec.hi κ)))]

/-- The first result's block is the block of the specification's first array. -/
theorem outAct_block
    (hx : ∀ (p : Fin 256) (κ : Fin 2048) (P : Fin 1024), P.val = I * 256 + p.val → x (ix2 p κ) = X (ix2 P κ))
    (hr : ∀ (p : Fin 256) (κ : Fin 2048) (P : Fin 1024), P.val = I * 256 + p.val → r (ix2 p κ) = R (ix2 P κ))
    (hh : ∀ (p : Fin 256) (κ : Fin 2048) (P : Fin 1024), P.val = I * 256 + p.val → h (ix2 p κ) = H (ix2 P κ))
    (hht : ∀ (p : Fin 256) (q : Fin 512) (P : Fin 1024) (Q : Fin 2048), P.val = I * 256 + p.val → Q.val = J * 512 + q.val →
      ht (ix2 p q) = H (ix2 P Q))
    (hzt : ∀ (p : Fin 256) (q : Fin 512) (P : Fin 1024) (Q : Fin 2048), P.val = I * 256 + p.val → Q.val = J * 512 + q.val →
      zt (ix2 p q) = Z (ix2 P Q))
    (hpt : ∀ (p : Fin 256) (q : Fin 512) (P : Fin 1024) (Q : Fin 2048), P.val = I * 256 + p.val → Q.val = J * 512 + q.val →
      pt (ix2 p q) = Pot (ix2 P Q))
    (hw : ∀ (q : Fin 512) (κ : Fin 4096) (Q : Fin 2048), Q.val = J * 512 + q.val → w (ix2 q κ) = W (ix2 Q κ))
    (hb : ∀ (q : Fin 512) (Q : Fin 2048), Q.val = J * 512 + q.val → b (ix2 0 q) = B (ix2 0 Q))
    (hthr : ∀ (q : Fin 512) (Q : Fin 2048), Q.val = J * 512 + q.val → thr (ix2 0 q) = Thr (ix2 0 Q))
    (p : Fin 256) (q : Fin 512) (P : Fin 1024) (Q : Fin 2048) (hP : P.val = I * 256 + p.val) (hQ : Q.val = J * 512 + q.val) :
    outAct x r h ht zt pt w b thr (ix2 p q) = Cert.Spec.activated X R Z H Pot W B Thr P Q := by
  rw [outAct_apply, potNew_block X R Z H Pot W B x r h ht zt pt w b I J hx hr hh hht hzt hpt hw hb p q P Q hP hQ, hthr q Q hQ]
  rfl

/-- The second result's block is the block of the specification's second array. -/
theorem outPot_block
    (hx : ∀ (p : Fin 256) (κ : Fin 2048) (P : Fin 1024), P.val = I * 256 + p.val → x (ix2 p κ) = X (ix2 P κ))
    (hr : ∀ (p : Fin 256) (κ : Fin 2048) (P : Fin 1024), P.val = I * 256 + p.val → r (ix2 p κ) = R (ix2 P κ))
    (hh : ∀ (p : Fin 256) (κ : Fin 2048) (P : Fin 1024), P.val = I * 256 + p.val → h (ix2 p κ) = H (ix2 P κ))
    (hht : ∀ (p : Fin 256) (q : Fin 512) (P : Fin 1024) (Q : Fin 2048), P.val = I * 256 + p.val → Q.val = J * 512 + q.val →
      ht (ix2 p q) = H (ix2 P Q))
    (hzt : ∀ (p : Fin 256) (q : Fin 512) (P : Fin 1024) (Q : Fin 2048), P.val = I * 256 + p.val → Q.val = J * 512 + q.val →
      zt (ix2 p q) = Z (ix2 P Q))
    (hpt : ∀ (p : Fin 256) (q : Fin 512) (P : Fin 1024) (Q : Fin 2048), P.val = I * 256 + p.val → Q.val = J * 512 + q.val →
      pt (ix2 p q) = Pot (ix2 P Q))
    (hw : ∀ (q : Fin 512) (κ : Fin 4096) (Q : Fin 2048), Q.val = J * 512 + q.val → w (ix2 q κ) = W (ix2 Q κ))
    (hb : ∀ (q : Fin 512) (Q : Fin 2048), Q.val = J * 512 + q.val → b (ix2 0 q) = B (ix2 0 Q))
    (hthr : ∀ (q : Fin 512) (Q : Fin 2048), Q.val = J * 512 + q.val → thr (ix2 0 q) = Thr (ix2 0 Q))
    (hdec : ∀ (q : Fin 512) (Q : Fin 2048), Q.val = J * 512 + q.val → dec (ix2 0 q) = Dec (ix2 0 Q))
    (p : Fin 256) (q : Fin 512) (P : Fin 1024) (Q : Fin 2048) (hP : P.val = I * 256 + p.val) (hQ : Q.val = J * 512 + q.val) :
    outPot x r h ht zt pt w b thr dec (ix2 p q) = Cert.Spec.nonGated X R Z H Pot W B Thr Dec P Q := by
  rw [outPot_apply, potNew_block X R Z H Pot W B x r h ht zt pt w b I J hx hr hh hht hzt hpt hw hb p q P Q hP hQ, hthr q Q hQ,
    hdec q Q hQ]
  rfl

end Block

/-! ## The operand blocks at a grid point

A block's element sits in its array at block index times block size plus the coordinate inside the block. -/

section Reads

variable (V : (c : Dev nD) → (b : Ref sig .tc) → Buf (Elt Ideal) ((c : Thread nD τ).loc b))

theorem rd0 (c : Dev nD) (t : Fin cfg1.N) (p : Fin 256) (κ : Fin 2048) (P : Fin 1024) (K : Fin 2048)
    (hP : P.val = win1_0.index t (0 : Fin 2) * 256 + p.val) (hK : K.val = win1_0.index t (1 : Fin 2) * 2048 + κ.val) :
    iblk1 V c 0 t (ix2 p κ) = V c main_arg0 (ix2 P K) := by
  unfold iblk1
  rw [View.read_apply]
  show V c main_arg0 _ = V c main_arg0 _
  congr 1
  funext a; apply Fin.ext
  match a with
  | ⟨0, _⟩ => show win1_0.index t (0 : Fin 2) * 256 + 1 * p.val = P.val; omega
  | ⟨1, _⟩ => show win1_0.index t (1 : Fin 2) * 2048 + 1 * κ.val = K.val; omega

theorem rd1 (c : Dev nD) (t : Fin cfg1.N) (p : Fin 256) (κ : Fin 2048) (P : Fin 1024) (K : Fin 2048)
    (hP : P.val = win1_1.index t (0 : Fin 2) * 256 + p.val) (hK : K.val = win1_1.index t (1 : Fin 2) * 2048 + κ.val) :
    iblk1 V c 1 t (ix2 p κ) = V c main_v8_0 (ix2 P K) := by
  unfold iblk1
  rw [View.read_apply]
  show V c main_v8_0 _ = V c main_v8_0 _
  congr 1
  funext a; apply Fin.ext
  match a with
  | ⟨0, _⟩ => show win1_1.index t (0 : Fin 2) * 256 + 1 * p.val = P.val; omega
  | ⟨1, _⟩ => show win1_1.index t (1 : Fin 2) * 2048 + 1 * κ.val = K.val; omega

theorem rd2 (c : Dev nD) (t : Fin cfg1.N) (p : Fin 256) (κ : Fin 2048) (P : Fin 1024) (K : Fin 2048)
    (hP : P.val = win1_2.index t (0 : Fin 2) * 256 + p.val) (hK : K.val = win1_2.index t (1 : Fin 2) * 2048 + κ.val) :
    iblk1 V c 2 t (ix2 p κ) = V c main_arg1 (ix2 P K) := by
  unfold iblk1
  rw [View.read_apply]
  show V c main_arg1 _ = V c main_arg1 _
  congr 1
  funext a; apply Fin.ext
  match a with
  | ⟨0, _⟩ => show win1_2.index t (0 : Fin 2) * 256 + 1 * p.val = P.val; omega
  | ⟨1, _⟩ => show win1_2.index t (1 : Fin 2) * 2048 + 1 * κ.val = K.val; omega

theorem rd3 (c : Dev nD) (t : Fin cfg1.N) (p : Fin 256) (q : Fin 512) (P : Fin 1024) (Q : Fin 2048)
    (hP : P.val = win1_3.index t (0 : Fin 2) * 256 + p.val) (hQ : Q.val = win1_3.index t (1 : Fin 2) * 512 + q.val) :
    iblk1 V c 3 t (ix2 p q) = V c main_arg1 (ix2 P Q) := by
  unfold iblk1
  rw [View.read_apply]
  show V c main_arg1 _ = V c main_arg1 _
  congr 1
  funext a; apply Fin.ext
  match a with
  | ⟨0, _⟩ => show win1_3.index t (0 : Fin 2) * 256 + 1 * p.val = P.val; omega
  | ⟨1, _⟩ => show win1_3.index t (1 : Fin 2) * 512 + 1 * q.val = Q.val; omega

theorem rd4 (c : Dev nD) (t : Fin cfg1.N) (p : Fin 256) (q : Fin 512) (P : Fin 1024) (Q : Fin 2048)
    (hP : P.val = win1_4.index t (0 : Fin 2) * 256 + p.val) (hQ : Q.val = win1_4.index t (1 : Fin 2) * 512 + q.val) :
    iblk1 V c 4 t (ix2 p q) = V c main_v8_1 (ix2 P Q) := by
  unfold iblk1
  rw [View.read_apply]
  show V c main_v8_1 _ = V c main_v8_1 _
  congr 1
  funext a; apply Fin.ext
  match a with
  | ⟨0, _⟩ => show win1_4.index t (0 : Fin 2) * 256 + 1 * p.val = P.val; omega
  | ⟨1, _⟩ => show win1_4.index t (1 : Fin 2) * 512 + 1 * q.val = Q.val; omega

theorem rd5 (c : Dev nD) (t : Fin cfg1.N) (p : Fin 256) (q : Fin 512) (P : Fin 1024) (Q : Fin 2048)
    (hP : P.val = win1_5.index t (0 : Fin 2) * 256 + p.val) (hQ : Q.val = win1_5.index t (1 : Fin 2) * 512 + q.val) :
    iblk1 V c 5 t (ix2 p q) = V c main_arg2 (ix2 P Q) := by
  unfold iblk1
  rw [View.read_apply]
  show V c main_arg2 _ = V c main_arg2 _
  congr 1
  funext a; apply Fin.ext
  match a with
  | ⟨0, _⟩ => show win1_5.index t (0 : Fin 2) * 256 + 1 * p.val = P.val; omega
  | ⟨1, _⟩ => show win1_5.index t (1 : Fin 2) * 512 + 1 * q.val = Q.val; omega

theorem rd6 (c : Dev nD) (t : Fin cfg1.N) (q : Fin 512) (κ : Fin 4096) (Q : Fin 2048) (K : Fin 4096)
    (hQ : Q.val = win1_6.index t (0 : Fin 2) * 512 + q.val) (hK : K.val = win1_6.index t (1 : Fin 2) * 4096 + κ.val) :
    iblk1 V c 6 t (ix2 q κ) = V c main_v2 (ix2 Q K) := by
  unfold iblk1
  rw [View.read_apply]
  show V c main_v2 _ = V c main_v2 _
  congr 1
  funext a; apply Fin.ext
  match a with
  | ⟨0, _⟩ => show win1_6.index t (0 : Fin 2) * 512 + 1 * q.val = Q.val; omega
  | ⟨1, _⟩ => show win1_6.index t (1 : Fin 2) * 4096 + 1 * κ.val = K.val; omega

theorem rd7 (c : Dev nD) (t : Fin cfg1.N) (q : Fin 512) (Q : Fin 2048)
    (h0 : win1_7.index t (0 : Fin 2) = 0) (hQ : Q.val = win1_7.index t (1 : Fin 2) * 512 + q.val) :
    iblk1 V c 7 t (ix2 0 q) = V c main_v5 (ix2 0 Q) := by
  unfold iblk1
  rw [View.read_apply]
  show V c main_v5 _ = V c main_v5 _
  congr 1
  funext a; apply Fin.ext
  match a with
  | ⟨0, _⟩ => show win1_7.index t (0 : Fin 2) * 1 + 1 * 0 = 0; omega
  | ⟨1, _⟩ => show win1_7.index t (1 : Fin 2) * 512 + 1 * q.val = Q.val; omega

theorem rd8 (c : Dev nD) (t : Fin cfg1.N) (q : Fin 512) (Q : Fin 2048)
    (h0 : win1_8.index t (0 : Fin 2) = 0) (hQ : Q.val = win1_8.index t (1 : Fin 2) * 512 + q.val) :
    iblk1 V c 8 t (ix2 0 q) = V c main_v6 (ix2 0 Q) := by
  unfold iblk1
  rw [View.read_apply]
  show V c main_v6 _ = V c main_v6 _
  congr 1
  funext a; apply Fin.ext
  match a with
  | ⟨0, _⟩ => show win1_8.index t (0 : Fin 2) * 1 + 1 * 0 = 0; omega
  | ⟨1, _⟩ => show win1_8.index t (1 : Fin 2) * 512 + 1 * q.val = Q.val; omega

theorem rd9 (c : Dev nD) (t : Fin cfg1.N) (q : Fin 512) (Q : Fin 2048)
    (h0 : win1_9.index t (0 : Fin 2) = 0) (hQ : Q.val = win1_9.index t (1 : Fin 2) * 512 + q.val) :
    iblk1 V c 9 t (ix2 0 q) = V c main_v7 (ix2 0 Q) := by
  unfold iblk1
  rw [View.read_apply]
  show V c main_v7 _ = V c main_v7 _
  congr 1
  funext a; apply Fin.ext
  match a with
  | ⟨0, _⟩ => show win1_9.index t (0 : Fin 2) * 1 + 1 * 0 = 0; omega
  | ⟨1, _⟩ => show win1_9.index t (1 : Fin 2) * 512 + 1 * q.val = Q.val; omega

end Reads

/-! ## From blocks to the arrays -/

/-- The index maps, decided over the grid: every operand block moves with the result block (i, j) = (t mod 4, t div 4),
    a row band at (i, 0), a block at (i, j), the weight rows at (j, 0), a row tile at (0, j). -/
theorem idx_facts : ∀ t : Fin cfg1.N,
    win1_10.index t (0 : Fin 2) = t.val % 4 ∧ win1_10.index t (1 : Fin 2) = t.val / 4
    ∧ win1_11.index t (0 : Fin 2) = t.val % 4 ∧ win1_11.index t (1 : Fin 2) = t.val / 4
    ∧ win1_0.index t (0 : Fin 2) = t.val % 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val % 4 ∧ win1_3.index t (1 : Fin 2) = t.val / 4
    ∧ win1_4.index t (0 : Fin 2) = t.val % 4 ∧ win1_4.index t (1 : Fin 2) = t.val / 4
    ∧ win1_5.index t (0 : Fin 2) = t.val % 4 ∧ win1_5.index t (1 : Fin 2) = t.val / 4
    ∧ win1_6.index t (0 : Fin 2) = t.val / 4 ∧ win1_6.index t (1 : Fin 2) = 0
    ∧ win1_7.index t (0 : Fin 2) = 0 ∧ win1_7.index t (1 : Fin 2) = t.val / 4
    ∧ win1_8.index t (0 : Fin 2) = 0 ∧ win1_8.index t (1 : Fin 2) = t.val / 4
    ∧ win1_9.index t (0 : Fin 2) = 0 ∧ win1_9.index t (1 : Fin 2) = t.val / 4 :=
  (by decide +kernel : ∀ t : Fin grid1.N, _)

section Arrays

variable (V : (c : Dev nD) → (b : Ref sig .tc) → Buf (Elt Ideal) ((c : Thread nD τ).loc b))

/-- What point t writes back to the first result is block t of the specification's first array. -/
theorem flushedAct (c : Dev nD) (t : Fin cfg1.N) :
    (dat1 V c).flushed 10 t = ((cfg1.win 10).blk t).view.read (Elt Ideal)
      (Cert.Spec.arr (Cert.Spec.activated (V c main_arg0) (V c main_v8_0) (V c main_v8_1) (V c main_arg1) (V c main_arg2)
        (V c main_v2) (V c main_v5) (V c main_v6))) := by
  show (cfg1.win 10).cut (grid1.coords t) ((dat1 V c).after 10 t) = _
  rw [after1_10]
  obtain ⟨e100, e101, e110, e111, e00, e01, e10, e11, e20, e21, e30, e31, e40, e41, e50, e51, e60, e61, e70, e71, e80, e81,
    e90, e91⟩ := idx_facts t
  have ht : t.val < 16 := Nat.lt_of_lt_of_eq t.isLt N_1
  funext y
  obtain ⟨p, q, rfl⟩ : ∃ (p : Fin 256) (q : Fin 512), y = ix2 p q := ⟨y 0, y 1, eq_ix2 y⟩
  have hp := p.isLt
  have hq := q.isLt
  rw [View.read_apply]
  show outAct (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p q)
    = Cert.Spec.activated (V c main_arg0) (V c main_v8_0) (V c main_v8_1) (V c main_arg1) (V c main_arg2)
        (V c main_v2) (V c main_v5) (V c main_v6)
        ⟨win1_10.index t (0 : Fin 2) * 256 + 1 * p.val, by omega⟩ ⟨win1_10.index t (1 : Fin 2) * 512 + 1 * q.val, by omega⟩
  exact outAct_block (V c main_arg0) (V c main_v8_0) (V c main_v8_1) (V c main_arg1) (V c main_arg2) (V c main_v2) (V c main_v5)
    (V c main_v6) (iblk1 V c 0 t) (iblk1 V c 1 t) (iblk1 V c 2 t) (iblk1 V c 3 t) (iblk1 V c 4 t) (iblk1 V c 5 t)
    (iblk1 V c 6 t) (iblk1 V c 7 t) (iblk1 V c 8 t) (t.val % 4) (t.val / 4)
    (fun p κ P hP => rd0 V c t p κ P κ (by omega) (by omega))
    (fun p κ P hP => rd1 V c t p κ P κ (by omega) (by omega))
    (fun p κ P hP => rd2 V c t p κ P κ (by omega) (by omega))
    (fun p q P Q hP hQ => rd3 V c t p q P Q (by omega) (by omega))
    (fun p q P Q hP hQ => rd4 V c t p q P Q (by omega) (by omega))
    (fun p q P Q hP hQ => rd5 V c t p q P Q (by omega) (by omega))
    (fun q κ Q hQ => rd6 V c t q κ Q κ (by omega) (by omega))
    (fun q Q hQ => rd7 V c t q Q e70 (by omega))
    (fun q Q hQ => rd8 V c t q Q e80 (by omega))
    p q _ _ (by show win1_10.index t (0 : Fin 2) * 256 + 1 * p.val = _; omega)
    (by show win1_10.index t (1 : Fin 2) * 512 + 1 * q.val = _; omega)

/-- What point t writes back to the second result is block t of the specification's second array. -/
theorem flushedPot (c : Dev nD) (t : Fin cfg1.N) :
    (dat1 V c).flushed 11 t = ((cfg1.win 11).blk t).view.read (Elt Ideal)
      (Cert.Spec.arr (Cert.Spec.nonGated (V c main_arg0) (V c main_v8_0) (V c main_v8_1) (V c main_arg1) (V c main_arg2)
        (V c main_v2) (V c main_v5) (V c main_v6) (V c main_v7))) := by
  show (cfg1.win 11).cut (grid1.coords t) ((dat1 V c).after 11 t) = _
  rw [after1_11]
  obtain ⟨e100, e101, e110, e111, e00, e01, e10, e11, e20, e21, e30, e31, e40, e41, e50, e51, e60, e61, e70, e71, e80, e81,
    e90, e91⟩ := idx_facts t
  have ht : t.val < 16 := Nat.lt_of_lt_of_eq t.isLt N_1
  funext y
  obtain ⟨p, q, rfl⟩ : ∃ (p : Fin 256) (q : Fin 512), y = ix2 p q := ⟨y 0, y 1, eq_ix2 y⟩
  have hp := p.isLt
  have hq := q.isLt
  rw [View.read_apply]
  show outPot (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 p q)
    = Cert.Spec.nonGated (V c main_arg0) (V c main_v8_0) (V c main_v8_1) (V c main_arg1) (V c main_arg2)
        (V c main_v2) (V c main_v5) (V c main_v6) (V c main_v7)
        ⟨win1_11.index t (0 : Fin 2) * 256 + 1 * p.val, by omega⟩ ⟨win1_11.index t (1 : Fin 2) * 512 + 1 * q.val, by omega⟩
  exact outPot_block (V c main_arg0) (V c main_v8_0) (V c main_v8_1) (V c main_arg1) (V c main_arg2) (V c main_v2) (V c main_v5)
    (V c main_v6) (V c main_v7) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (t.val % 4) (t.val / 4)
    (fun p κ P hP => rd0 V c t p κ P κ (by omega) (by omega))
    (fun p κ P hP => rd1 V c t p κ P κ (by omega) (by omega))
    (fun p κ P hP => rd2 V c t p κ P κ (by omega) (by omega))
    (fun p q P Q hP hQ => rd3 V c t p q P Q (by omega) (by omega))
    (fun p q P Q hP hQ => rd4 V c t p q P Q (by omega) (by omega))
    (fun p q P Q hP hQ => rd5 V c t p q P Q (by omega) (by omega))
    (fun q κ Q hQ => rd6 V c t q κ Q κ (by omega) (by omega))
    (fun q Q hQ => rd7 V c t q Q e70 (by omega))
    (fun q Q hQ => rd8 V c t q Q e80 (by omega))
    (fun q Q hQ => rd9 V c t q Q e90 (by omega))
    p q _ _ (by show win1_11.index t (0 : Fin 2) * 256 + 1 * p.val = _; omega)
    (by show win1_11.index t (1 : Fin 2) * 512 + 1 * q.val = _; omega)

/-- An entry of the first result is in point t's block iff each coordinate is in the block's range on its axis. -/
theorem mem_blkAct (t : Fin cfg1.N) (i : S1024x2048.Idx) :
    i ∈ ((cfg1.win 10).blk t).view.set ↔ ∀ a : Fin 2, win1_10.index t a * S256x512.size a ≤ (i a).val
      ∧ (i a).val < win1_10.index t a * S256x512.size a + S256x512.size a := by
  show i ∈ ((View.whole main_v9_0).slice (win1_10.rect t)).set ↔ _
  rw [View.set_slice_whole, Rect.mem_set_unit]
  exact Iff.rfl

/-- The same for the second result. -/
theorem mem_blkPot (t : Fin cfg1.N) (i : S1024x2048.Idx) :
    i ∈ ((cfg1.win 11).blk t).view.set ↔ ∀ a : Fin 2, win1_11.index t a * S256x512.size a ≤ (i a).val
      ∧ (i a).val < win1_11.index t a * S256x512.size a + S256x512.size a := by
  show i ∈ ((View.whole main_v9_1).slice (win1_11.rect t)).set ↔ _
  rw [View.set_slice_whole, Rect.mem_set_unit]
  exact Iff.rfl

/-- The 16 blocks tile the first result: entry (P, Q) is in the block of point (Q / 512) * 4 + P / 256. -/
theorem coverAct (i : S1024x2048.Idx) :
    ∃ t : Fin cfg1.N, (cfg1.win 10).flush t = true ∧ i ∈ ((cfg1.win 10).blk t).view.set := by
  have h0 : (i 0).val < 1024 := (i 0).isLt
  have h1 : (i 1).val < 2048 := (i 1).isLt
  refine ⟨⟨(i 1).val / 512 * 4 + (i 0).val / 256, by rw [show cfg1.N = 16 from N_1]; omega⟩, flush1_10 _, ?_⟩
  rw [mem_blkAct]
  obtain ⟨e100, e101, -⟩ := idx_facts ⟨(i 1).val / 512 * 4 + (i 0).val / 256, by rw [show cfg1.N = 16 from N_1]; omega⟩
  intro a
  match a with
  | ⟨0, _⟩ =>
    show win1_10.index _ (0 : Fin 2) * 256 ≤ (i 0).val ∧ (i 0).val < win1_10.index _ (0 : Fin 2) * 256 + 256
    rw [e100]; show ((i 1).val / 512 * 4 + (i 0).val / 256) % 4 * 256 ≤ _ ∧ _ < ((i 1).val / 512 * 4 + (i 0).val / 256) % 4 * 256 + 256
    omega
  | ⟨1, _⟩ =>
    show win1_10.index _ (1 : Fin 2) * 512 ≤ (i 1).val ∧ (i 1).val < win1_10.index _ (1 : Fin 2) * 512 + 512
    rw [e101]; show ((i 1).val / 512 * 4 + (i 0).val / 256) / 4 * 512 ≤ _ ∧ _ < ((i 1).val / 512 * 4 + (i 0).val / 256) / 4 * 512 + 512
    omega

/-- The same for the second result. -/
theorem coverPot (i : S1024x2048.Idx) :
    ∃ t : Fin cfg1.N, (cfg1.win 11).flush t = true ∧ i ∈ ((cfg1.win 11).blk t).view.set := by
  have h0 : (i 0).val < 1024 := (i 0).isLt
  have h1 : (i 1).val < 2048 := (i 1).isLt
  refine ⟨⟨(i 1).val / 512 * 4 + (i 0).val / 256, by rw [show cfg1.N = 16 from N_1]; omega⟩, flush1_11 _, ?_⟩
  rw [mem_blkPot]
  obtain ⟨-, -, e110, e111, -⟩ := idx_facts ⟨(i 1).val / 512 * 4 + (i 0).val / 256, by rw [show cfg1.N = 16 from N_1]; omega⟩
  intro a
  match a with
  | ⟨0, _⟩ =>
    show win1_11.index _ (0 : Fin 2) * 256 ≤ (i 0).val ∧ (i 0).val < win1_11.index _ (0 : Fin 2) * 256 + 256
    rw [e110]; show ((i 1).val / 512 * 4 + (i 0).val / 256) % 4 * 256 ≤ _ ∧ _ < ((i 1).val / 512 * 4 + (i 0).val / 256) % 4 * 256 + 256
    omega
  | ⟨1, _⟩ =>
    show win1_11.index _ (1 : Fin 2) * 512 ≤ (i 1).val ∧ (i 1).val < win1_11.index _ (1 : Fin 2) * 512 + 512
    rw [e111]; show ((i 1).val / 512 * 4 + (i 0).val / 256) / 4 * 512 ≤ _ ∧ _ < ((i 1).val / 512 * 4 + (i 0).val / 256) / 4 * 512 + 512
    omega

/-- After the region the first result array is the specification's first array of the arrays the region finds. -/
theorem finalAct (c : Dev nD) :
    (dat1 V c).arrAt 10 cfg1.N
      = Cert.Spec.arr (Cert.Spec.activated (V c main_arg0) (V c main_v8_0) (V c main_v8_1) (V c main_arg1) (V c main_arg2)
          (V c main_v2) (V c main_v5) (V c main_v6)) :=
  (dat1 V c).arrAt_eq_of_cover 10 _ (fun t _ => flushedAct V c t) coverAct

/-- After the region the second result array is the specification's second array of the arrays the region finds. -/
theorem finalPot (c : Dev nD) :
    (dat1 V c).arrAt 11 cfg1.N
      = Cert.Spec.arr (Cert.Spec.nonGated (V c main_arg0) (V c main_v8_0) (V c main_v8_1) (V c main_arg1) (V c main_arg2)
          (V c main_v2) (V c main_v5) (V c main_v6) (V c main_v7)) :=
  (dat1 V c).arrAt_eq_of_cover 11 _ (fun t _ => flushedPot V c t) coverPot

end Arrays

end Cert.KernelIdeal.Val1

end
-- ==== Proof.Bridge.lean ====
/-
  The kernel program's two results as the specification's functions of the launch memory, at the ideal values.

  Region 1's results are the specification's activated and non-gated potentials of ITS entry contents; of those, r and z
  are region 0's results, which are the specification's gates of region 0's entry contents; the other operands reach
  either region as launched (no item writes an argument) or as the host stretch left them: a weight matrix cast to bf16
  is the matrix itself, a reshaped vector is the vector read as a row.
-/
import proofs.«140406_j13340168421984_1_alg».proof.Proof.KernelIdeal.Vals
import proofs.«140406_j13340168421984_1_alg».proof.Proof.HostV
import proofs.«140406_j13340168421984_1_alg».proof.Proof.Val0
import proofs.«140406_j13340168421984_1_alg».proof.Proof.Val1
import proofs.«140406_j13340168421984_1_alg».proof.Proof.Spec

set_option maxRecDepth 16384

noncomputable section

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-! ## Region 0's entry contents -/

theorem e0_x (c : Dev nD) : V1 m c main_arg0 = (m ((c.tc : Thread nD τ).loc main_arg0)) := W1_main_arg0 m c
theorem e0_h (c : Dev nD) : V1 m c main_arg1 = (m ((c.tc : Thread nD τ).loc main_arg1)) := W1_main_arg1 m c

/-- The r gate's array, as region 0 leaves it. -/
theorem gateR (c : Dev nD) : (W2 m c main_v8_0 : S1024x2048.Idx → EReal) = (Cert.Spec.arr (Cert.Spec.gate (m ((c.tc : Thread nD τ).loc main_arg0)) (m ((c.tc : Thread nD τ).loc main_arg1)) (m ((c.tc : Thread nD τ).loc main_arg3)) (Cert.Spec.rowOf (m ((c.tc : Thread nD τ).loc main_arg4))))) := by
  refine (W2_arr m c 6).trans ?_
  rw [Cert.KernelIdeal.Val0.finalR (V1 m) c, e0_x m c, e0_h m c]
  exact congrArg Cert.Spec.arr (congr (congrArg _ (HostV.W1_main_v0 m c)) (HostV.W1_main_v3 m c))

/-- The z gate's array, as region 0 leaves it. -/
theorem gateZ (c : Dev nD) : (W2 m c main_v8_1 : S1024x2048.Idx → EReal) = (Cert.Spec.arr (Cert.Spec.gate (m ((c.tc : Thread nD τ).loc main_arg0)) (m ((c.tc : Thread nD τ).loc main_arg1)) (m ((c.tc : Thread nD τ).loc main_arg5)) (Cert.Spec.rowOf (m ((c.tc : Thread nD τ).loc main_arg6))))) := by
  refine (W2_arr m c 7).trans ?_
  rw [Cert.KernelIdeal.Val0.finalZ (V1 m) c, e0_x m c, e0_h m c]
  exact congrArg Cert.Spec.arr (congr (congrArg _ (HostV.W1_main_v1 m c)) (HostV.W1_main_v4 m c))

/-! ## Region 1's entry contents -/

theorem e1_x (c : Dev nD) : V2 m c main_arg0 = (m ((c.tc : Thread nD τ).loc main_arg0)) := W2_main_arg0 m c
theorem e1_h (c : Dev nD) : V2 m c main_arg1 = (m ((c.tc : Thread nD τ).loc main_arg1)) := W2_main_arg1 m c
theorem e1_pot (c : Dev nD) : V2 m c main_arg2 = (m ((c.tc : Thread nD τ).loc main_arg2)) := W2_main_arg2 m c
theorem e1_w (c : Dev nD) : (V2 m c main_v2 : S2048x4096.Idx → EReal) = (m ((c.tc : Thread nD τ).loc main_arg7)) :=
  (W2_of_ne m c main_v2 (by decide)).trans (HostV.W1_main_v2 m c)
theorem e1_b (c : Dev nD) : (V2 m c main_v5 : S1x2048.Idx → EReal) = Cert.Spec.rowOf (m ((c.tc : Thread nD τ).loc main_arg8)) :=
  (W2_of_ne m c main_v5 (by decide)).trans (HostV.W1_main_v5 m c)
theorem e1_thr (c : Dev nD) : (V2 m c main_v6 : S1x2048.Idx → EReal) = Cert.Spec.rowOf (m ((c.tc : Thread nD τ).loc main_arg9)) :=
  (W2_of_ne m c main_v6 (by decide)).trans (HostV.W1_main_v6 m c)
theorem e1_dec (c : Dev nD) : (V2 m c main_v7 : S1x2048.Idx → EReal) = Cert.Spec.rowOf (m ((c.tc : Thread nD τ).loc main_arg10)) :=
  (W2_of_ne m c main_v7 (by decide)).trans (HostV.W1_main_v7 m c)

/-! ## The two results -/

/-- The first result of @main. -/
theorem out0 (c : Dev nD) : (W3 m c main_v9_0 : S1024x2048.Idx → EReal)
    = Cert.Spec.arr (Cert.Spec.activated (m ((c.tc : Thread nD τ).loc main_arg0)) (Cert.Spec.arr (Cert.Spec.gate (m ((c.tc : Thread nD τ).loc main_arg0)) (m ((c.tc : Thread nD τ).loc main_arg1)) (m ((c.tc : Thread nD τ).loc main_arg3)) (Cert.Spec.rowOf (m ((c.tc : Thread nD τ).loc main_arg4))))) (Cert.Spec.arr (Cert.Spec.gate (m ((c.tc : Thread nD τ).loc main_arg0)) (m ((c.tc : Thread nD τ).loc main_arg1)) (m ((c.tc : Thread nD τ).loc main_arg5)) (Cert.Spec.rowOf (m ((c.tc : Thread nD τ).loc main_arg6))))) (m ((c.tc : Thread nD τ).loc main_arg1)) (m ((c.tc : Thread nD τ).loc main_arg2)) (m ((c.tc : Thread nD τ).loc main_arg7))
        (Cert.Spec.rowOf (m ((c.tc : Thread nD τ).loc main_arg8))) (Cert.Spec.rowOf (m ((c.tc : Thread nD τ).loc main_arg9)))) := by
  refine (W3_act m c).trans ?_
  rw [Cert.KernelIdeal.Val1.finalAct (V2 m) c, e1_x m c, e1_h m c, e1_pot m c]
  rw [show (V2 m c main_v8_0 : S1024x2048.Idx → EReal) = _ from gateR m c,
    show (V2 m c main_v8_1 : S1024x2048.Idx → EReal) = _ from gateZ m c,
    show (V2 m c main_v2 : S2048x4096.Idx → EReal) = _ from e1_w m c,
    show (V2 m c main_v5 : S1x2048.Idx → EReal) = _ from e1_b m c,
    show (V2 m c main_v6 : S1x2048.Idx → EReal) = _ from e1_thr m c]

/-- The second result of @main. -/
theorem out1 (c : Dev nD) : (W3 m c main_v9_1 : S1024x2048.Idx → EReal)
    = Cert.Spec.arr (Cert.Spec.nonGated (m ((c.tc : Thread nD τ).loc main_arg0)) (Cert.Spec.arr (Cert.Spec.gate (m ((c.tc : Thread nD τ).loc main_arg0)) (m ((c.tc : Thread nD τ).loc main_arg1)) (m ((c.tc : Thread nD τ).loc main_arg3)) (Cert.Spec.rowOf (m ((c.tc : Thread nD τ).loc main_arg4))))) (Cert.Spec.arr (Cert.Spec.gate (m ((c.tc : Thread nD τ).loc main_arg0)) (m ((c.tc : Thread nD τ).loc main_arg1)) (m ((c.tc : Thread nD τ).loc main_arg5)) (Cert.Spec.rowOf (m ((c.tc : Thread nD τ).loc main_arg6))))) (m ((c.tc : Thread nD τ).loc main_arg1)) (m ((c.tc : Thread nD τ).loc main_arg2)) (m ((c.tc : Thread nD τ).loc main_arg7))
        (Cert.Spec.rowOf (m ((c.tc : Thread nD τ).loc main_arg8))) (Cert.Spec.rowOf (m ((c.tc : Thread nD τ).loc main_arg9))) (Cert.Spec.rowOf (m ((c.tc : Thread nD τ).loc main_arg10)))) := by
  refine (W3_pot m c).trans ?_
  rw [Cert.KernelIdeal.Val1.finalPot (V2 m) c, e1_x m c, e1_h m c, e1_pot m c]
  rw [show (V2 m c main_v8_0 : S1024x2048.Idx → EReal) = _ from gateR m c,
    show (V2 m c main_v8_1 : S1024x2048.Idx → EReal) = _ from gateZ m c,
    show (V2 m c main_v2 : S2048x4096.Idx → EReal) = _ from e1_w m c,
    show (V2 m c main_v5 : S1x2048.Idx → EReal) = _ from e1_b m c,
    show (V2 m c main_v6 : S1x2048.Idx → EReal) = _ from e1_thr m c,
    show (V2 m c main_v7 : S1x2048.Idx → EReal) = _ from e1_dec m c]

end Cert.KernelIdeal.Bridge

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Ref.lean ====
/-
  The reference's two results, entry by entry, are the specification's functions of its argument arrays.

  Each linear layer of the reference is a product of a joined input [1024, 4096] with a transposed weight matrix
  [4096, 2048], plus a bias vector spread over the rows. At a column κ < 2048 the joined input (a, b) is a at κ, at
  the column 2048 + κ it is b at κ, and the transposed weights at (κ', q) are the weights at (q, κ'); so the sum over
  the 4096 contraction positions is the sum of a's products with the first half of weight row q plus the sum of b's
  products with the second half. The gates are 1 / (1 + exp (−v)) of such a layer, which is the logistic function
  once the float word of 1 is read as the number 1. The candidate's second input is the array r · h, so the reset
  gate is settled first, as an array, and the candidate's layer is the same half-sum lemma at b = r · h. The rest is
  pointwise: the potential, its threshold and clip at zero, the two comparisons' truth bits read as 0 or 1.
-/
import proofs.«140406_j13340168421984_1_alg».proof.Proof.Gen.ReferenceIdeal.Run
import proofs.«140406_j13340168421984_1_alg».proof.Proof.Gen.ReferenceIdeal.Read
import proofs.«140406_j13340168421984_1_alg».proof.Proof.Spec
import proofs.«140406_j13340168421984_1_alg».proof.Proof.LibPlainDot
import Idealize.ShloMosaic.Lib.IdealHost

noncomputable section

namespace Cert.RefSide

open Cert.ReferenceIdeal Cert.ReferenceIdeal.Gen Idealize.ShloMosaic Idealize.ShloMosaic.ValueIdx Idealize.ShloMosaic.TcCoe Idealize.SL.Sem Idealize.ShloMosaic.StableHlo

/-- The arrays of the cell, as the reference's operations type them. -/
abbrev Act : Type := (⟨S1024x2048, .f32⟩ : BufTy).Contents (Elt Ideal)
abbrev Wgt : Type := (⟨S2048x4096, .f32⟩ : BufTy).Contents (Elt Ideal)
abbrev Vc : Type := (⟨S2048, .f32⟩ : BufTy).Contents (Elt Ideal)

/-- The joined input (a, b) at a column of its first half is a. -/
theorem cat_lo (a b : Act) (hc : Shape.Concatenates [S1024x2048, S1024x2048] S1024x4096 1) (p : Fin 1024) (κ : Fin 2048) :
    concatenate S1024x4096 1 [⟨S1024x2048, a⟩, ⟨S1024x2048, b⟩] hc (ix2 p (Cert.Spec.lo κ)) = a (ix2 p κ) :=
  concatenate_pair_apply_left 1 a b hc (ix2 p (Cert.Spec.lo κ)) rfl (ix2 p κ) (fun d => match d with
    | ⟨0, _⟩ => rfl
    | ⟨1, _⟩ => rfl)

/-- The joined input (a, b) at a column of its second half is b. -/
theorem cat_hi (a b : Act) (hc : Shape.Concatenates [S1024x2048, S1024x2048] S1024x4096 1) (p : Fin 1024) (κ : Fin 2048) :
    concatenate S1024x4096 1 [⟨S1024x2048, a⟩, ⟨S1024x2048, b⟩] hc (ix2 p (Cert.Spec.hi κ)) = b (ix2 p κ) :=
  concatenate_pair_apply_right 1 a b hc (ix2 p (Cert.Spec.hi κ)) rfl rfl (ix2 p κ) (fun d => match d with
    | ⟨0, _⟩ => fun _ => rfl
    | ⟨1, _⟩ => fun h => absurd rfl h) (by show κ.val + 2048 = 2048 + κ.val; omega)

/-- The transposed weights at (κ', q) are the weights at (q, κ'). -/
theorem tr_apply (w : Wgt) (ht : S2048x4096.Transposes [1, 0] S4096x2048) (k : Fin 4096) (q : Fin 2048) :
    transpose S4096x2048 [1, 0] w ht (ix2 k q) = w (ix2 q k) :=
  transpose_apply [1, 0] w ht (ix2 k q) (ix2 q k) (fun d => match d with
    | ⟨0, _⟩ => rfl
    | ⟨1, _⟩ => rfl)

/-- The reference's matrix product contracts axis 1 of the left operand with axis 0 of the right, with no batch axis. -/
theorem plain : Cert.PlainDot.Plain (a := 1024) (k := 4096) (b := 2048) dot_S1024x4096_S4096x2048_S1024x2048_1_0_0_1_n_n :=
  ⟨rfl, rfl, rfl, rfl, rfl, rfl⟩

/-- The product of the joined input (a, b) with the transposed weights: the two half sums. -/
theorem dot_cat (a b : Act) (w : Wgt) (hc : Shape.Concatenates [S1024x2048, S1024x2048] S1024x4096 1)
    (ht : S2048x4096.Transposes [1, 0] S4096x2048) (p : Fin 1024) (q : Fin 2048) :
    Host.dotGeneral (F := Ideal) (φ₁ := .f32) (φ₂ := .f32) dot_S1024x4096_S4096x2048_S1024x2048_1_0_0_1_n_n none
        (concatenate S1024x4096 1 [⟨S1024x2048, a⟩, ⟨S1024x2048, b⟩] hc) (transpose S4096x2048 [1, 0] w ht) (ix2 p q)
      = (∑ κ : Fin 2048, a (ix2 p κ) * w (ix2 q (Cert.Spec.lo κ))) + ∑ κ : Fin 2048, b (ix2 p κ) * w (ix2 q (Cert.Spec.hi κ)) := by
  rw [Cert.PlainDot.dotGeneral_apply plain rfl rfl, Cert.Spec.sum_halves]
  congr 1
  · exact Finset.sum_congr rfl fun κ _ => by rw [cat_lo, tr_apply]
  · exact Finset.sum_congr rfl fun κ _ => by rw [cat_hi, tr_apply]

/-- A bias vector spread over the rows, at (p, q), is the bias row at q. -/
theorem bias_apply (bias : Vc) (h1 : S2048.BroadcastsInDim S1x2048 (![1] : Fin 1 → Fin S1x2048.rank))
    (h2 : S1x2048.BroadcastsInDim S1024x2048 (![0, 1] : Fin 2 → Fin S1024x2048.rank)) (p : Fin 1024) (q : Fin 2048) :
    broadcastInDim S1024x2048 ![0, 1] h2 (broadcastInDim S1x2048 ![1] h1 bias) (ix2 p q) = Cert.Spec.rowOf bias (ix2 0 q) := by
  rw [broadcastInDim_apply _ h2 _ (ix2 p q) (ix2 0 q) (fun a => match a with
      | ⟨0, _⟩ => by show 0 = if (1 : Nat) = 1 then 0 else p.val; rw [if_pos rfl]
      | ⟨1, _⟩ => by show q.val = if (2048 : Nat) = 1 then 0 else q.val; rw [if_neg (by decide)]),
    broadcastInDim_apply _ h1 bias (ix2 0 q) (ix1 q) (fun a => match a with
      | ⟨0, _⟩ => by show q.val = if (2048 : Nat) = 1 then 0 else q.val; rw [if_neg (by decide)])]
  rfl

/-- The logistic function spelt as 1 / (1 + exp (−v)), the ones as the float word of 1. -/
theorem logistic_spelt (v : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf v)))
      = FloatOps.logistic (F := Ideal) (φ := .f32) v := by
  rw [Ideal.ofBits_def, Ideal.ofBits_one_f32]
  rfl

variable (x0 x1 x2 : Act) (x3 : Wgt) (x4 : Vc) (x5 : Wgt) (x6 : Vc) (x7 : Wgt) (x8 x9 x10 : Vc) (p : Fin 1024) (q : Fin 2048)

/-- The linear layer under the reset gate. -/
theorem lin_r : Read.val_main_v5 (F := Ideal) x0 x1 x3 x4 (ix2 p q) = Cert.Spec.lin x0 x1 x3 (Cert.Spec.rowOf x4) p q := by
  rw [Read.val_main_v5_apply]
  unfold Read.val_main_v2 Read.val_main_v0 Read.val_main_v1 Read.val_main_v4 Read.val_main_v3
  rw [dot_cat, bias_apply]
  rfl

/-- The linear layer under the update gate. -/
theorem lin_z : Read.val_main_v16 (F := Ideal) x0 x1 x5 x6 (ix2 p q) = Cert.Spec.lin x0 x1 x5 (Cert.Spec.rowOf x6) p q := by
  rw [Read.val_main_v16_apply]
  unfold Read.val_main_v13 Read.val_main_v0 Read.val_main_v12 Read.val_main_v15 Read.val_main_v14
  rw [dot_cat, bias_apply]
  rfl

/-- The reset gate. -/
theorem gate_r : Read.val_main_v11 (F := Ideal) x0 x1 x3 x4 (ix2 p q) = Cert.Spec.gate x0 x1 x3 (Cert.Spec.rowOf x4) p q := by
  rw [Read.val_main_v11_apply, Read.val_main_v10_apply, Read.val_main_cst_0_apply, Read.val_main_v9_apply, Read.val_main_v8_apply,
    Read.val_main_cst_apply, Read.val_main_v7_apply, Read.val_main_v6_apply, lin_r, logistic_spelt]
  rfl

/-- The update gate. -/
theorem gate_z : Read.val_main_v22 (F := Ideal) x0 x1 x5 x6 (ix2 p q) = Cert.Spec.gate x0 x1 x5 (Cert.Spec.rowOf x6) p q := by
  rw [Read.val_main_v22_apply, Read.val_main_v21_apply, Read.val_main_cst_2_apply, Read.val_main_v20_apply, Read.val_main_v19_apply,
    Read.val_main_cst_1_apply, Read.val_main_v18_apply, Read.val_main_v17_apply, lin_z, logistic_spelt]
  rfl

/-- The recurrent input under the reset gate, as an array: r · h. -/
theorem reset_h : Read.val_main_v23 (F := Ideal) x0 x1 x3 x4
    = fun i => Cert.Spec.arr (Cert.Spec.gate x0 x1 x3 (Cert.Spec.rowOf x4)) i * x1 i := by
  funext i
  obtain ⟨p, q, rfl⟩ : ∃ (p : Fin 1024) (q : Fin 2048), i = ix2 p q := ⟨i 0, i 1, eq_ix2 i⟩
  rw [Read.val_main_v23_apply, gate_r]
  rfl

/-- The candidate state. -/
theorem cand_stage : Read.val_main_v30 (F := Ideal) x0 x1 x3 x4 x7 x8 (ix2 p q)
    = Cert.Spec.cand x0 (Cert.Spec.arr (Cert.Spec.gate x0 x1 x3 (Cert.Spec.rowOf x4))) x1 x7 (Cert.Spec.rowOf x8) p q := by
  rw [Read.val_main_v30_apply, Read.val_main_v29_apply]
  unfold Read.val_main_v26 Read.val_main_v24 Read.val_main_v25 Read.val_main_v28 Read.val_main_v27
  rw [dot_cat, bias_apply, reset_h]
  rfl

/-- The updated potential. -/
theorem pot_stage : Read.val_main_v36 (F := Ideal) x0 x1 x2 x3 x4 x5 x6 x7 x8 (ix2 p q)
    = Cert.Spec.potNew x0 (Cert.Spec.arr (Cert.Spec.gate x0 x1 x3 (Cert.Spec.rowOf x4)))
        (Cert.Spec.arr (Cert.Spec.gate x0 x1 x5 (Cert.Spec.rowOf x6))) x1 x2 x7 (Cert.Spec.rowOf x8) p q := by
  rw [Read.val_main_v36_apply, Read.val_main_v35_apply, Read.val_main_v33_apply, Read.val_main_v32_apply, Read.val_main_v31_apply,
    Read.val_main_cst_3_apply, Read.val_main_v34_apply, gate_z, cand_stage]
  rfl

/-- The thresholded potential, clipped at zero. -/
theorem gated_stage : Read.val_main_v40 (F := Ideal) x0 x1 x2 x3 x4 x5 x6 x7 x8 x9 (ix2 p q)
    = Cert.Spec.gated x0 (Cert.Spec.arr (Cert.Spec.gate x0 x1 x3 (Cert.Spec.rowOf x4)))
        (Cert.Spec.arr (Cert.Spec.gate x0 x1 x5 (Cert.Spec.rowOf x6))) x1 x2 x7 (Cert.Spec.rowOf x8) (Cert.Spec.rowOf x9) p q := by
  rw [Read.val_main_v40_apply, Read.val_main_call0_v0_apply, Read.val_main_call0_cst_apply, Read.val_main_v39_apply, pot_stage]
  unfold Read.val_main_v38 Read.val_main_v37
  rw [bias_apply]
  rfl

/-- The first result at an entry. -/
theorem activated_stage : Read.val_main_v44 (F := Ideal) x0 x1 x2 x3 x4 x5 x6 x7 x8 x9 (ix2 p q)
    = Cert.Spec.activated x0 (Cert.Spec.arr (Cert.Spec.gate x0 x1 x3 (Cert.Spec.rowOf x4)))
        (Cert.Spec.arr (Cert.Spec.gate x0 x1 x5 (Cert.Spec.rowOf x6))) x1 x2 x7 (Cert.Spec.rowOf x8) (Cert.Spec.rowOf x9) p q := by
  rw [Read.val_main_v44_apply, Read.val_main_v43_apply, Read.val_main_v42_apply, Read.val_main_v41_apply, Read.val_main_cst_4_apply,
    gated_stage, pot_stage]
  rfl

/-- The second result at an entry. -/
theorem nonGated_stage : Read.val_main_v51 (F := Ideal) x0 x1 x2 x3 x4 x5 x6 x7 x8 x9 x10 (ix2 p q)
    = Cert.Spec.nonGated x0 (Cert.Spec.arr (Cert.Spec.gate x0 x1 x3 (Cert.Spec.rowOf x4)))
        (Cert.Spec.arr (Cert.Spec.gate x0 x1 x5 (Cert.Spec.rowOf x6))) x1 x2 x7 (Cert.Spec.rowOf x8) (Cert.Spec.rowOf x9)
        (Cert.Spec.rowOf x10) p q := by
  rw [Read.val_main_v51_apply, Read.val_main_v48_apply, Read.val_main_v47_apply, Read.val_main_v46_apply, Read.val_main_v45_apply,
    Read.val_main_cst_5_apply, gated_stage, pot_stage]
  unfold Read.val_main_v50 Read.val_main_v49
  rw [bias_apply]
  rfl

/-- The reference's first result is the specification's activated potential of the argument arrays. -/
theorem out0_eq (m : (ℓ : Loc nD τ sig) → Buf (Elt Ideal) ℓ) (c : Dev nD) :
    Cert.ReferenceIdeal.Value.res_out0 (F := Ideal) m c
      = Cert.Spec.arr (Cert.Spec.activated (m ((c.tc : Thread nD τ).loc main_arg0))
          (Cert.Spec.arr (Cert.Spec.gate (m ((c.tc : Thread nD τ).loc main_arg0)) (m ((c.tc : Thread nD τ).loc main_arg1)) (m ((c.tc : Thread nD τ).loc main_arg3)) (Cert.Spec.rowOf (m ((c.tc : Thread nD τ).loc main_arg4)))))
          (Cert.Spec.arr (Cert.Spec.gate (m ((c.tc : Thread nD τ).loc main_arg0)) (m ((c.tc : Thread nD τ).loc main_arg1)) (m ((c.tc : Thread nD τ).loc main_arg5)) (Cert.Spec.rowOf (m ((c.tc : Thread nD τ).loc main_arg6)))))
          (m ((c.tc : Thread nD τ).loc main_arg1)) (m ((c.tc : Thread nD τ).loc main_arg2)) (m ((c.tc : Thread nD τ).loc main_arg7))
          (Cert.Spec.rowOf (m ((c.tc : Thread nD τ).loc main_arg8))) (Cert.Spec.rowOf (m ((c.tc : Thread nD τ).loc main_arg9)))) := by
  refine (Read.val_main_v44_eq m c).trans ?_
  funext i
  obtain ⟨p, q, rfl⟩ : ∃ (p : Fin 1024) (q : Fin 2048), i = ix2 p q := ⟨i 0, i 1, eq_ix2 i⟩
  exact activated_stage _ _ _ _ _ _ _ _ _ _ p q

/-- The reference's second result is the specification's non-gated potential, decayed, of the argument arrays. -/
theorem out1_eq (m : (ℓ : Loc nD τ sig) → Buf (Elt Ideal) ℓ) (c : Dev nD) :
    Cert.ReferenceIdeal.Value.res_out1 (F := Ideal) m c
      = Cert.Spec.arr (Cert.Spec.nonGated (m ((c.tc : Thread nD τ).loc main_arg0))
          (Cert.Spec.arr (Cert.Spec.gate (m ((c.tc : Thread nD τ).loc main_arg0)) (m ((c.tc : Thread nD τ).loc main_arg1)) (m ((c.tc : Thread nD τ).loc main_arg3)) (Cert.Spec.rowOf (m ((c.tc : Thread nD τ).loc main_arg4)))))
          (Cert.Spec.arr (Cert.Spec.gate (m ((c.tc : Thread nD τ).loc main_arg0)) (m ((c.tc : Thread nD τ).loc main_arg1)) (m ((c.tc : Thread nD τ).loc main_arg5)) (Cert.Spec.rowOf (m ((c.tc : Thread nD τ).loc main_arg6)))))
          (m ((c.tc : Thread nD τ).loc main_arg1)) (m ((c.tc : Thread nD τ).loc main_arg2)) (m ((c.tc : Thread nD τ).loc main_arg7))
          (Cert.Spec.rowOf (m ((c.tc : Thread nD τ).loc main_arg8))) (Cert.Spec.rowOf (m ((c.tc : Thread nD τ).loc main_arg9)))
          (Cert.Spec.rowOf (m ((c.tc : Thread nD τ).loc main_arg10)))) := by
  refine (Read.val_main_v51_eq m c).trans ?_
  funext i
  obtain ⟨p, q, rfl⟩ : ∃ (p : Fin 1024) (q : Fin 2048), i = ix2 p q := ⟨i 0, i 1, eq_ix2 i⟩
  exact nonGated_stage _ _ _ _ _ _ _ _ _ _ _ p q

end Cert.RefSide

end
-- ==== Proof.lean ====
/-
  The certificate of a gated recurrent cell with threshold gating: a Pallas program of two kernel regions against its
  jnp reference, over the extended reals.

  Both programs compute, for a batch row p and a hidden unit q,
      r = logistic (lin x h W_r b_r),  z = logistic (lin x h W_z b_z),  n = tanh (lin x (r · h) W_c b_c),
      pot' = pot + ((1 − z) · h + z · n),  g = max (pot' − thr) 0,
      activated = [g > 0] · pot',  non-gated = (pot' · [g ≤ 0]) · decay,
  where lin x u W b = ∑ κ, (x ‖ u) (p, κ) · W (q, κ) + b q over the 4096 columns of the joined input. The reference joins
  the inputs and takes one product of 4096 terms against the transposed weights; the kernel takes the two halves of 2048
  against the two column halves of the weight rows and adds them: the same sum, addition of extended reals being
  commutative and associative (no finiteness is used). The kernel's casts to bf16 are the identity at the ideal values;
  its logistic is the reference's 1 / (1 + exp (−v)); its truth bits, widened and read as signed integers, are the
  reference's read as naturals.

  The kernel program's frame, at the word level and at the ideal values, is its run through the host stretch and the two
  regions; the reference's frame is its run with the results dropped; the idealization rewrote nothing.
-/
import proofs.«140406_j13340168421984_1_alg».proof.Defs
import proofs.«140406_j13340168421984_1_alg».proof.Proof.Gen.Kernel
import proofs.«140406_j13340168421984_1_alg».proof.Proof.Gen.KernelIdeal
import proofs.«140406_j13340168421984_1_alg».proof.Proof.Gen.ReferenceIdeal
import proofs.«140406_j13340168421984_1_alg».proof.Proof.Gen.Pre_finite_inputs
import proofs.«140406_j13340168421984_1_alg».proof.Proof.Gen.ReferenceIdeal.Run
import proofs.«140406_j13340168421984_1_alg».proof.Proof.Kernel.Run
import proofs.«140406_j13340168421984_1_alg».proof.Proof.KernelIdeal.Run
import proofs.«140406_j13340168421984_1_alg».proof.Proof.Bridge
import proofs.«140406_j13340168421984_1_alg».proof.Proof.Ref

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to restate. -/
theorem preserves : Cert.preserves_Kernel_KernelIdeal := trivial

open Cert.KernelIdeal Cert.KernelIdeal.Hand in
/-- Run from memories that agree on the arguments, the kernel program ends with its two results at the specification's
    functions of its launch memory, and the reference with its two at the same functions of its own: equal arrays. -/
theorem algebraic : Cert.algebraic_KernelIdeal_ReferenceIdeal := by
  intro m ρ m' ρ' _ hagree
  refine ⟨fun c => W3 m c main_v9_0, fun c => W3 m c main_v9_1, ?_, ?_⟩
  · exact (θ_run Cert.KernelIdeal.defs _ _).mono (fun _ h c =>
      ⟨h c _ (mem_uc main_v9_0 (by decide)), h c _ (mem_uc main_v9_1 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c),
       (h c _ (mem_uc main_arg7 (by decide))).trans (W3_main_arg7 m c),
       (h c _ (mem_uc main_arg8 (by decide))).trans (W3_main_arg8 m c),
       (h c _ (mem_uc main_arg9 (by decide))).trans (W3_main_arg9 m c),
       (h c _ (mem_uc main_arg10 (by decide))).trans (W3_main_arg10 m c)⟩)
      (run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.RefSide.out0_eq m' c).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1]
      exact (Cert.KernelIdeal.Bridge.out0 m c).symm
    · refine (Cert.RefSide.out1_eq m' c).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2]
      exact (Cert.KernelIdeal.Bridge.out1 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
